-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S_ : Shape := ⟨0, ![]⟩

class Facts : Prop where
  bcast_S_S16x1024x300 : S_.BroadcastsInDim S16x1024x300 (![] : Fin 0 → Fin S16x1024x300.rank)
  reducesTo_S16x1024x300_S_d0_1_2 : S16x1024x300.ReducesTo [0, 1, 2] S_
  h_S_ : 0 < S_.numel
  bcast_S_S64x300 : S_.BroadcastsInDim S64x300 (![] : Fin 0 → Fin S64x300.rank)
  reducesTo_S64x300_S_d0_1 : S64x300.ReducesTo [0, 1] S_
  bcast_S_S64 : S_.BroadcastsInDim S64 (![] : Fin 0 → Fin S64.rank)
  reducesTo_S64_S_d0 : S64.ReducesTo [0] S_
  bcast_S_S256x64x64 : S_.BroadcastsInDim S256x64x64 (![] : Fin 0 → Fin S256x64x64.rank)
  reducesTo_S256x64x64_S_d0_1_2 : S256x64x64.ReducesTo [0, 1, 2] S_

variable [Facts]

def fn_part1 {F : FTy → Type} [FloatOps F] (main_v13 : IVec S_ 1) (main_v16 : IVec S256x64x64 1) : IVec S_ 1 :=
  let main_c_5 : IVec S_ 1 := constantI S_ 1 1#1
  let main_v17 : IVec S_ 1 := (fun x v => Host.reduce IntOp.andi x v reducesTo_S256x64x64_S_d0_1_2 h_S_) main_v16 main_c_5
  let main_v18 : IVec S_ 1 := andi main_v13 main_v17
  main_v18

def fn {F : FTy → Type} [FloatOps F] (main_arg0 : FVec F S16x1024x300 .f32) (main_arg1 : FVec F S64x300 .f32) (main_arg2 : FVec F S64 .f32) (main_arg3 : FVec F S256x64x64 .f32) : IVec S_ 1 :=
  let main_v0 : FVec F S16x1024x300 .f32 := Host.absf main_arg0
  let main_cst : FVec F S_ .f32 := constant S_ .f32 0x7F800000#32
  let main_v1 : FVec F S16x1024x300 .f32 := broadcastInDim S16x1024x300 ![] bcast_S_S16x1024x300 main_cst
  let main_v2 : IVec S16x1024x300 1 := cmpf .olt main_v0 main_v1
  let main_c : IVec S_ 1 := constantI S_ 1 1#1
  let main_v3 : IVec S_ 1 := (fun x v => Host.reduce IntOp.andi x v reducesTo_S16x1024x300_S_d0_1_2 h_S_) main_v2 main_c
  let main_v4 : FVec F S64x300 .f32 := Host.absf main_arg1
  let main_cst_0 : FVec F S_ .f32 := constant S_ .f32 0x7F800000#32
  let main_v5 : FVec F S64x300 .f32 := broadcastInDim S64x300 ![] bcast_S_S64x300 main_cst_0
  let main_v6 : IVec S64x300 1 := cmpf .olt main_v4 main_v5
  let main_c_1 : IVec S_ 1 := constantI S_ 1 1#1
  let main_v7 : IVec S_ 1 := (fun x v => Host.reduce IntOp.andi x v reducesTo_S64x300_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64x64 .f32 := Host.absf main_arg3
  let main_cst_4 : FVec F S_ .f32 := constant S_ .f32 0x7F800000#32
  let main_v15 : FVec F S256x64x64 .f32 := broadcastInDim S256x64x64 ![] bcast_S_S256x64x64 main_cst_4
  let main_v16 : IVec S256x64x64 1 := cmpf .olt main_v14 main_v15
  fn_part1 (F := F) main_v13 main_v16
-- ==== Kernel.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S1x64 : Shape := ⟨2, ![1, 64]⟩
abbrev S16384x300 : Shape := ⟨2, ![16384, 300]⟩
abbrev S16384x64 : Shape := ⟨2, ![16384, 64]⟩
abbrev S4096x300 : Shape := ⟨2, ![4096, 300]⟩
abbrev S4096x64 : Shape := ⟨2, ![4096, 64]⟩
abbrev S16x1024x64 : Shape := ⟨3, ![16, 1024, 64]⟩
abbrev S64x256x64 : Shape := ⟨3, ![64, 256, 64]⟩
abbrev S16x256 : Shape := ⟨2, ![16, 256]⟩
abbrev S8x128x64 : Shape := ⟨3, ![8, 128, 64]⟩
abbrev S8x256 : Shape := ⟨2, ![8, 256]⟩
abbrev S1x128x64 : Shape := ⟨3, ![1, 128, 64]⟩
abbrev S128x64 : Shape := ⟨2, ![128, 64]⟩
abbrev S128x16384 : Shape := ⟨2, ![128, 16384]⟩
abbrev S128x64x256 : Shape := ⟨3, ![128, 64, 256]⟩
abbrev S128x256 : Shape := ⟨2, ![128, 256]⟩
abbrev S256 : Shape := ⟨1, ![256]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S16x1024x300, .f32⟩
  | .hbm, ⟨1, _⟩ => ⟨S64x300, .f32⟩
  | .hbm, ⟨2, _⟩ => ⟨S64, .f32⟩
  | .hbm, ⟨3, _⟩ => ⟨S256x64x64, .f32⟩
  | .hbm, ⟨4, _⟩ => ⟨S1x64, .f32⟩
  | .hbm, ⟨5, _⟩ => ⟨S16384x300, .f32⟩
  | .hbm, ⟨6, _⟩ => ⟨S16384x64, .f32⟩
  | .hbm, ⟨7, _⟩ => ⟨S16x1024x64, .f32⟩
  | .hbm, ⟨8, _⟩ => ⟨S64x256x64, .f32⟩
  | .hbm, ⟨9, _⟩ => ⟨S16x256, .f32⟩
  | .local _ .vmem, ⟨0, _⟩ => ⟨S4096x300, .f32⟩
  | .local _ .vmem, ⟨1, _⟩ => ⟨S4096x300, .f32⟩
  | .local _ .vmem, ⟨2, _⟩ => ⟨S64x300, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S8x128x64, .f32⟩
  | .local _ .vmem, ⟨7, _⟩ => ⟨S8x128x64, .f32⟩
  | .local _ .vmem, ⟨8, _⟩ => ⟨S64x256x64, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | _, _ => ⟨S16x1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

@[reducible] def k1_t1_loop : Scf.Loop 32 :=
  let c0_i32_3 : BitVec 32 := 0#32
  let c8_i32 : BitVec 32 := 8#32
  let v7 : BitVec 32 := Scalar.addi c0_i32_3 c8_i32
  let c1_i32 : BitVec 32 := 1#32
  ⟨c0_i32_3, v7, c1_i32⟩
def k1_off1 (k1_t1 : Fin k1_t1_loop.trips) : Fin 3 → Nat :=
  let c0_i32_3 : BitVec 32 := 0#32
  let c1_i32 : BitVec 32 := 1#32
  let arg6 : BitVec 32 := Scf.iv c0_i32_3 c1_i32 k1_t1
  let v11 : Index := Scalar.indexCast arg6
  let c0_6 : Index := 0#32
  let c0_7 : Index := 0#32
  ![v11.toNat, 0, 0]
def k1_off2 (k1_t1 : Fin k1_t1_loop.trips) : Fin 2 → Nat :=
  let c0_i32_3 : BitVec 32 := 0#32
  let c1_i32 : BitVec 32 := 1#32
  let arg6 : BitVec 32 := Scf.iv c0_i32_3 c1_i32 k1_t1
  let v21 : Index := Scalar.indexCast arg6
  let c0_11 : Index := 0#32
  ![v21.toNat, 0]
def k1_cond2 (i : grid1.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_5 : BitVec 32 := 0#32
  let v10 : BitVec 1 := Scalar.cmpi .ne v9 c0_i32_5
  v10

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64_S1x64 : S64.ShapeCasts S1x64
  shapeCasts_S16x1024x300_S16384x300 : S16x1024x300.ShapeCasts S16384x300
  inb_S4096x300_S4096x300_0_0 : ∀ a, (![0, 0] : Fin 2 → Nat) a + S4096x300.size a ≤ S4096x300.size a
  h_S4096x300 : 0 < S4096x300.numel
  shapeCasts_S4096x300_S4096x300 : S4096x300.ShapeCasts S4096x300
  bitsLt_bf16_f32 : FTy.bits .bf16 < FTy.bits .f32
  inb_S64x300_S64x300_0_0 : ∀ a, (![0, 0] : Fin 2 → Nat) a + S64x300.size a ≤ S64x300.size a
  h_S64x300 : 0 < S64x300.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S16384x64_S16x1024x64 : S16384x64.ShapeCasts S16x1024x64
  transposes_S256x64x64_S64x256x64_1_0_2 : S256x64x64.Transposes [1, 0, 2] S64x256x64
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  shapeCasts_S64x256x64_S16384x64 : S64x256x64.ShapeCasts S16384x64
  h_S1x128x64 : 0 < S1x128x64.numel
  shapeCasts_S1x128x64_S128x64 : S1x128x64.ShapeCasts S128x64
  shapeCasts_S128x16384_S128x64x256 : S128x16384.ShapeCasts S128x64x256
  reduces_S128x64x256_S128x256 : S128x64x256.Reduces [1] S128x256
  reduces_S128x256_S256 : S128x256.Reduces [0] S256
  h_S1x256 : 0 < S1x256.numel
  shapeCasts_S1x256_S256 : S1x256.ShapeCasts S256
  shapeCasts_S256_S1x256 : S256.ShapeCasts S1x256
  dot_S4096x300_S64x300_S4096x64_1_1_0_0_n_n_wf : DotDims.WF S4096x300 S64x300 S4096x64 [1] [1] [0] [0] [] []
  dot_S128x64_S16384x64_S128x16384_1_1_0_0_n_n_wf : DotDims.WF S128x64 S16384x64 S128x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x300.size a ≤ S16384x300.size a
  hwx0_0 : ∀ i : grid0.Coords, EltTy.bits .f32 = 32 ∨ (Rect.block (s := S16384x300) S4096x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x300.size a ≤ S64x300.size a
  hwx0_1 : ∀ i : grid0.Coords, EltTy.bits .f32 = 32 ∨ (Rect.block (s := S64x300) S64x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S16384x64.size a
  hwx0_3 : ∀ i : grid0.Coords, EltTy.bits .f32 = 32 ∨ (Rect.block (s := S16384x64) S4096x64.size (cc0_transform_3 i) (hinb0_3 i)).WholeWords (EltTy.packing .f32)
  hrank1 : 0 < grid1.rank
  k1_t1_ok : k1_t1_loop.OK
  k1_off1_inb : ∀ k1_t1 : Fin k1_t1_loop.trips, ∀ a, (k1_off1 k1_t1) a + S1x128x64.size a ≤ S8x128x64.size a
  k1_off2_inb : ∀ k1_t1 : Fin k1_t1_loop.trips, ∀ a, (k1_off2 k1_t1) a + S1x256.size a ≤ S8x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x64.size a ≤ S16x1024x64.size a
  hwx1_0 : ∀ i : grid1.Coords, EltTy.bits .f32 = 32 ∨ (Rect.block (s := S16x1024x64) S8x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256x64.size a ≤ S64x256x64.size a
  hwx1_1 : ∀ i : grid1.Coords, EltTy.bits .f32 = 32 ∨ (Rect.block (s := S64x256x64) S64x256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S16x256.size a
  hwx1_2 : ∀ i : grid1.Coords, EltTy.bits .f32 = 32 ∨ (Rect.block (s := S16x256) S8x256.size (cc1_transform_2 i) (hinb1_2 i)).WholeWords (EltTy.packing .f32)

variable [Facts₀]

def dot_S4096x300_S64x300_S4096x64_1_1_0_0_n_n : DotDims S4096x300 S64x300 S4096x64 where
  lhsContracting := [1]
  rhsContracting := [1]
  lhsNonContracting := [0]
  rhsNonContracting := [0]
  lhsBatch := []
  rhsBatch := []
  wf := dot_S4096x300_S64x300_S4096x64_1_1_0_0_n_n_wf
def dot_S128x64_S16384x64_S128x16384_1_1_0_0_n_n : DotDims S128x64 S16384x64 S128x16384 where
  lhsContracting := [1]
  rhsContracting := [1]
  lhsNonContracting := [0]
  rhsNonContracting := [0]
  lhsBatch := []
  rhsBatch := []
  wf := dot_S128x64_S16384x64_S128x16384_1_1_0_0_n_n_wf

abbrev win0_0 : Pipeline.Window sig grid0 :=
  Pipeline.Window.ofSpec (Memref.whole main_v1) S4096x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S16x1024x64 : Shape := ⟨3, ![16, 1024, 64]⟩
abbrev S1x1x64 : Shape := ⟨3, ![1, 1, 64]⟩
abbrev S16x1024x256x64 : Shape := ⟨4, ![16, 1024, 256, 64]⟩
abbrev S_ : Shape := ⟨0, ![]⟩
abbrev S16x1024x256 : Shape := ⟨3, ![16, 1024, 256]⟩
abbrev S16x256 : Shape := ⟨2, ![16, 256]⟩

abbrev nBuf : Space → Nat
  | .hbm => 16
  | .vmem => 0
  | .smem => 0
  | _ => 0

abbrev bufTy : (tb : Table) → Fin (tcTables nBuf tb) → BufTy
  | .hbm, ⟨0, _⟩ => ⟨S16x1024x300, .f32⟩
  | .hbm, ⟨1, _⟩ => ⟨S64x300, .f32⟩
  | .hbm, ⟨2, _⟩ => ⟨S64, .f32⟩
  | .hbm, ⟨3, _⟩ => ⟨S256x64x64, .f32⟩
  | .hbm, ⟨4, _⟩ => ⟨S16x1024x64, .f32⟩
  | .hbm, ⟨5, _⟩ => ⟨S1x1x64, .f32⟩
  | .hbm, ⟨6, _⟩ => ⟨S16x1024x64, .f32⟩
  | .hbm, ⟨7, _⟩ => ⟨S16x1024x64, .f32⟩
  | .hbm, ⟨8, _⟩ => ⟨S16x1024x256x64, .f32⟩
  | .hbm, ⟨9, _⟩ => ⟨S_, .f32⟩
  | .hbm, ⟨10, _⟩ => ⟨S16x1024x256x64, .f32⟩
  | .hbm, ⟨11, _⟩ => ⟨S16x1024x256x64, .f32⟩
  | .hbm, ⟨12, _⟩ => ⟨S_, .f32⟩
  | .hbm, ⟨13, _⟩ => ⟨S16x1024x256, .f32⟩
  | .hbm, ⟨14, _⟩ => ⟨S_, .f32⟩
  | .hbm, ⟨15, _⟩ => ⟨S16x256, .f32⟩
  | _, _ => ⟨S16x1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x1024x64_0_1_2 : S1x1x64.BroadcastsInDim S16x1024x64 (![0, 1, 2] : Fin 3 → Fin S16x1024x64.rank)
  bcast_S_S16x1024x256x64 : S_.BroadcastsInDim S16x1024x256x64 (![] : Fin 0 → Fin S16x1024x256x64.rank)
  reducesTo_S16x1024x256x64_S16x1024x256_d3 : S16x1024x256x64.ReducesTo [3] S16x1024x256
  h_S_ : 0 < S_.numel
  reducesTo_S16x1024x256_S16x256_d1 : S16x1024x256.ReducesTo [1] S16x256
  dot_S16x1024x300_S64x300_S16x1024x64_2_1_01_0_n_n_wf : DotDims.WF S16x1024x300 S64x300 S16x1024x64 [2] [1] [0, 1] [0] [] []
  dot_S16x1024x64_S256x64x64_S16x1024x256x64_2_2_01_01_n_n_wf : DotDims.WF S16x1024x64 S256x64x64 S16x1024x256x64 [2] [2] [0, 1] [0, 1] [] []

variable [Facts₀]

def dot_S16x1024x300_S64x300_S16x1024x64_2_1_01_0_n_n : DotDims S16x1024x300 S64x300 S16x1024x64 where
  lhsContracting := [2]
  rhsContracting := [1]
  lhsNonContracting := [0, 1]
  rhsNonContracting := [0]
  lhsBatch := []
  rhsBatch := []
  wf := dot_S16x1024x300_S64x300_S16x1024x64_2_1_01_0_n_n_wf
def dot_S16x1024x64_S256x64x64_S16x1024x256x64_2_2_01_01_n_n : DotDims S16x1024x64 S256x64x64 S16x1024x256x64 where
  lhsContracting := [2]
  rhsContracting := [2]
  lhsNonContracting := [0, 1]
  rhsNonContracting := [0, 1]
  lhsBatch := []
  rhsBatch := []
  wf := dot_S16x1024x64_S256x64x64_S16x1024x256x64_2_2_01_01_n_n_wf

class Facts : Prop extends Facts₀ where

variable [Facts]
-- ==== Proof.KR0Frame.lean ====
/-
  Region 0 (the projection kernel Xc = x · Wᵀ + b on a grid of 4 row blocks): one control case. The body loads its
  three input blocks whole, computes the block of the product plus the bias row, and stores it whole into the
  output block. Stated at a parameter V, the core's buffer contents when the region is entered.
-/
import proofs.«179034_j15960098472410_1_alg».proof.Proof.Gen.Kernel.Launch
import proofs.«179034_j15960098472410_1_alg».proof.Proof.Gen.Kernel.Skeleton
import proofs.«179034_j15960098472410_1_alg».proof.Proof.Gen.Kernel.Points
import proofs.«179034_j15960098472410_1_alg».proof.Proof.Gen.Kernel.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S4096x300 := Rect.unit (s := S4096x300) ![0, 0] S4096x300.size inb_S4096x300_S4096x300_0_0
abbrev r0_w : Rect S64x300 := Rect.unit (s := S64x300) ![0, 0] S64x300.size inb_S64x300_S64x300_0_0
abbrev r0_b : Rect S1x64 := Rect.unit (s := S1x64) ![0, 0] S1x64.size inb_S1x64_S1x64_0_0
abbrev r0_o : Rect S4096x64 := Rect.unit (s := S4096x64) ![0, 0] S4096x64.size inb_S4096x64_S4096x64_0_0

/-- The output block after the body, from the three input blocks: its one whole store. -/
def out0_3 (x0 : Vec F S4096x300 .f32) (x1 : Vec F S64x300 .f32) (x2 : Vec F S1x64 .f32) : Vec F S4096x64 .f32 :=
  View.canon [⟨r0_o, k0_pay1 (View.ld x0 r0_x) (View.ld x1 r0_w) (View.ld x2 r0_b)⟩]

theorem cover0_3 (p0 : Vec F S4096x64 .f32) (y : S4096x64.Idx) :
    ∃ pc ∈ ([⟨r0_o, p0⟩] : List (View.Piece (Elt F) S4096x64 .f32)), y ∈ pc.1.set :=
  View.cover_of_tiled [⟨r0_o, p0⟩] S4096x64.size (by rfl) y

set_option maxHeartbeats 1000000 in
theorem sound_kernel0 (c : Dev nD) (E : Set ℕ) (i : grid0.Coords) (arg1 : Memref sig .tc .vmem S4096x300 .f32) (harg1 : arg1.IsWhole) (arg2 : Memref sig .tc .vmem S64x300 .f32) (harg2 : arg2.IsWhole) (arg3 : Memref sig .tc .vmem S1x64 .f32) (harg3 : arg3.IsWhole) (arg4 : Memref sig .tc .vmem S4096x64 .f32) (harg4 : arg4.IsWhole)
    (x0 : Vec F S4096x300 .f32) (x1 : Vec F S64x300 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__xc_kernel i arg1 harg1 arg2 harg2 arg3 harg3 arg4 harg4) K := by
  simp only [cc0__xc_kernel_eq_skeleton]; unfold cc0__xc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KR1Shared.lean ====
/-
  Region 1 (the bipartite-match kernel on the grid [2, 8]): what its three control cases share. The body resets the
  accumulator scratch at the first step of the set axis (coordinate 1 = 0), adds one partial sum per batch row
  of the block to it at every step, and copies it to the output block at the last step (coordinate 1 = 7). The
  two conditions are decided over the sixteen grid points in closed form; the output window is idle and not
  written back wherever the last-step condition fails.
-/
import proofs.«179034_j15960098472410_1_alg».proof.Proof.Gen.Kernel.Launch
import proofs.«179034_j15960098472410_1_alg».proof.Proof.Gen.Kernel.Skeleton
import proofs.«179034_j15960098472410_1_alg».proof.Proof.Gen.Kernel.Points
import proofs.«179034_j15960098472410_1_alg».proof.Proof.Gen.Kernel.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the set-axis coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out condition: the set-axis coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S8x256 .f32 := (Memref.whole cc1_stg2_0 : Memref sig .tc .vmem S8x256 .f32).view
abbrev ms1_0 (t : Fin cfg1.N) : Memref sig .tc .vmem S8x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S8x256 .f32 := Memref.whole cc1_scratch0
abbrev VS1_0 : View sig .tc .vmem S8x256 .f32 := scM1_0.view

/-- The scoped buffers of the core that region 1 neither stages nor names: region 0's six staging buffers,
    each whole at some contents. -/
abbrev restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant of region 1 with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KR1RunA.lean ====
/-
  Region 1's body at the first step of the set axis (coordinate 1 = 0): the scratch is zero-filled, then the eight
  trips of the row loop each add one row's partial sum into it; nothing is written out.
-/
import proofs.«179034_j15960098472410_1_alg».proof.Proof.KR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) :
    { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunB.lean ====
/-
  Region 1's body in the case where neither condition holds (set-axis coordinate 1 to 6): nothing is reset and
  nothing is written out; the eight trips of the row loop each add one row's partial sum into the scratch.
-/
import proofs.«179034_j15960098472410_1_alg».proof.Proof.KR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) :
    { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunC.lean ====
/-
  Region 1's body at the last step of the set axis (coordinate 1 = 7): nothing is reset; the eight trips of the
  row loop each add one row's partial sum into the scratch, and the scratch is then copied whole into the output
  block.
-/
import proofs.«179034_j15960098472410_1_alg».proof.Proof.KR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, ?_, fun E K => ?run⟩
  case run =>
    simp only [cc1__lambda__eq_skeleton]; unfold cc1__lambda__skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KR1Frame.lean ====
/-
  Region 1 (the bipartite-match kernel on the grid [2, 8]) as a pipeline: what the accumulator scratch holds after
  each grid point, by recursion on the point (reset at the first step of the set axis, one partial sum per batch row
  added at every step), what the output block holds at the last step of the set axis (a copy of the scratch), the
  region invariant that carries the scratch from point to point, the proof data and the body obligation. Stated at
  a parameter V, the core's buffer contents when the region is entered.
-/
import proofs.«179034_j15960098472410_1_alg».proof.Proof.KR1RunA
import proofs.«179034_j15960098472410_1_alg».proof.Proof.KR1RunB
import proofs.«179034_j15960098472410_1_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the scratch and in the output block -/

theorem scover1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) (y : S8x256.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x256.size (by sl_kernel_rfl) y

/-- The scratch after a first-step point: the eight rows the loop stored, read back. -/
def sout1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) : Vec F S8x256 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) (y : S8x256.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x256.size (by sl_kernel_rfl) y

/-- The scratch after a middle point, over what the point before left. -/
def sout1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_B c i arg2 harg2 arg3 harg3 arg4 harg4 arg5 harg5 hc0 hc1 x0 x1 xs0).1)

theorem scover1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x256.size (by sl_kernel_rfl) y

/-- The scratch after a last-step point, over what the point before left. -/
def sout1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x256.size (by sl_kernel_rfl) y

/-- The output block after a last-step point: the one whole store, read back. -/
def out1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VO1_2.read (Elt F) (VO1_2.writes (Elt F) VO1_2.junk (kernelRun1_C c i arg2 harg2 arg3 harg3 arg4 harg4 arg5 harg5 hc0 hc1 x0 x1 xs0).1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch and the output block point by point -/

/-- What the accumulator scratch holds after the body at position n. -/
def scAt1 (c : Dev nD) : (n : ℕ) → n < cfg1.N → Vec F S8x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 8 = 0 then
      if h1 : (n + 1) % 8 = 7 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 8 = 7 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (scAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (scAt1 c n (Nat.lt_of_succ_lt hn))

theorem scAt1_A (c : Dev nD) (t : Fin cfg1.N) (h0 : t.val % 8 = 0) (h1 : ¬t.val % 8 = 7) :
    scAt1 V c t.val t.isLt = sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem scAt1_B (c : Dev nD) (t : Fin cfg1.N) (h0 : ¬t.val % 8 = 0) (h1 : ¬t.val % 8 = 7) :
    scAt1 V c t.val t.isLt = sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt1_C (c : Dev nD) (t : Fin cfg1.N) (h0 : ¬t.val % 8 = 0) (h1 : t.val % 8 = 7) :
    scAt1 V c t.val t.isLt = sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at a last-step point the copy of the
    scratch; elsewhere the window is idle and not written back, and nothing reads this placeholder. -/
def outAt1 (c : Dev nD) (t : Fin cfg1.N) : Vec F S8x256 .f32 :=
  if h1 : t.val % 8 = 7 then
    out1_C_2 c (grid1.coords t) (ms1_0 t) (hs1_0 t) (ms1_1 t) (hs1_1 t) (ms1_2 t) (hs1_2 t) scM1_0 (Memref.isWhole_whole _) (fun h => (by have := (hcond1_0 t).mp h; omega)) ((hcond1_1 t).mpr h1) (iblk1 V c 0 t) (iblk1 V c 1 t) (scAt1 V c (t.val - 1) (Nat.lt_of_le_of_lt (Nat.sub_le _ _) t.isLt))
  else VO1_2.read (Elt F) VO1_2.junk

theorem outAt1_C (c : Dev nD) (t : Fin cfg1.N) (h0 : ¬t.val % 8 = 0) (h1 : t.val % 8 = 7) :
    outAt1 V c t = out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (scAt1 V c (t.val - 1) (Nat.lt_of_le_of_lt (Nat.sub_le _ _) t.isLt)) := by
  unfold outAt1; exact dif_pos h1

/-! ## The region invariant -/

/-- Before position n: at the region's entry the class invariant (every scoped buffer at anything); afterwards
    region 0's staging buffers at anything, the scratch at what the point before left, and the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

section Region1b
variable (V : (c : Dev nD) → (b : Ref sig .tc) → Buf (Elt F) ((c : Thread nD τ).loc b))

set_option maxHeartbeats 4800000 in
/-- The body at any point: the closed forms of the two conditions say which case the point is in; the invariant hands the
    body the scratch at what the point before left (at anything at the region's first point) and takes it back at this
    point's contents; the output block's buffer is handed back untouched wherever it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [scAt1_A V c t h0 h1]
      unfold sout1_A; (try dsimp only)
      by_cases hz : t.val = 0
      · rw [PhiS1_castSucc V c t, PhiS1_zero V c _ _ hz, PhiA1_eq]
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [scAt1_C V c t h0 h1, outAt1_C V c t h0 h1]
      unfold out1_C_2 sout1_C; (try dsimp only)
      have hz : t.val ≠ 0 := by omega
      rw [PhiS1_castSucc V c t, PhiS1_pos V c _ _ hz]
      iintro ⟨⟨⟨Ha, Hb, Hc, Hd, He, Hf, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [scAt1_B V c t h0 h1]
      unfold sout1_B; (try dsimp only)
      have hz : t.val ≠ 0 := by omega
      rw [PhiS1_castSucc V c t, PhiS1_pos V c _ _ hz]
      iintro ⟨⟨⟨Ha, Hb, Hc, Hd, He, Hf, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hz : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ hz, PhiA1_eq]
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

end Region1b

end Cert.Kernel.Hand

end
-- ==== Proof.KLaunch.lean ====
/-
  The whole program: the buffer contents at each boundary between its four items (two host stretches, two kernel
  regions) as a fold from the launch memory, each region's proof data at its entry contents, the items as segments
  over the thread state "every unscoped buffer at the boundary's contents, the generator register at some state,
  nothing owed", and the run: every weakly fair execution terminates with every unscoped buffer at the last
  boundary's contents. The frame (each argument as launched) and the result array's contents are read off it.
-/
import proofs.«179034_j15960098472410_1_alg».proof.Proof.KR0Frame
import proofs.«179034_j15960098472410_1_alg».proof.Proof.KR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what region 1's write-backs leave. -/
theorem W4_main_v5 (c : Dev nD) : W4 m c (Proc.devRef .tc main_v5) = (dat1 (V3 m) c).arrAt 2 cfg1.N := W4_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its invariant carries the
    accumulator scratch from point to point; it is entered from the class invariant and gives it back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m) c)
    unfold Pipeline.ΦA
    iintro ⟨Hp, -, Hr⟩
    isplitl [Hr]; · iexact Hr
    iexact Hp
  hout c := by
    refine Idealize.SL.BI.BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v5) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.R0Frame.lean ====
/-
  Region 0 (the projection kernel Xc = x · Wᵀ + b on a grid of 4 row blocks): one control case. The body loads its
  three input blocks whole, computes the block of the product plus the bias row, and stores it whole into the
  output block. Stated at a parameter V, the core's buffer contents when the region is entered.
-/
import proofs.«179034_j15960098472410_1_alg».proof.Proof.Gen.KernelIdeal.Launch
import proofs.«179034_j15960098472410_1_alg».proof.Proof.Gen.KernelIdeal.Skeleton
import proofs.«179034_j15960098472410_1_alg».proof.Proof.Gen.KernelIdeal.Points
import proofs.«179034_j15960098472410_1_alg».proof.Proof.Gen.KernelIdeal.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S4096x300 := Rect.unit (s := S4096x300) ![0, 0] S4096x300.size inb_S4096x300_S4096x300_0_0
abbrev r0_w : Rect S64x300 := Rect.unit (s := S64x300) ![0, 0] S64x300.size inb_S64x300_S64x300_0_0
abbrev r0_b : Rect S1x64 := Rect.unit (s := S1x64) ![0, 0] S1x64.size inb_S1x64_S1x64_0_0
abbrev r0_o : Rect S4096x64 := Rect.unit (s := S4096x64) ![0, 0] S4096x64.size inb_S4096x64_S4096x64_0_0

/-- The output block after the body, from the three input blocks: its one whole store. -/
def out0_3 (x0 : Vec F S4096x300 .f32) (x1 : Vec F S64x300 .f32) (x2 : Vec F S1x64 .f32) : Vec F S4096x64 .f32 :=
  View.canon [⟨r0_o, k0_pay1 (View.ld x0 r0_x) (View.ld x1 r0_w) (View.ld x2 r0_b)⟩]

theorem cover0_3 (p0 : Vec F S4096x64 .f32) (y : S4096x64.Idx) :
    ∃ pc ∈ ([⟨r0_o, p0⟩] : List (View.Piece (Elt F) S4096x64 .f32)), y ∈ pc.1.set :=
  View.cover_of_tiled [⟨r0_o, p0⟩] S4096x64.size (by rfl) y

set_option maxHeartbeats 1000000 in
theorem sound_kernel0 (c : Dev nD) (E : Set ℕ) (i : grid0.Coords) (arg1 : Memref sig .tc .vmem S4096x300 .f32) (harg1 : arg1.IsWhole) (arg2 : Memref sig .tc .vmem S64x300 .f32) (harg2 : arg2.IsWhole) (arg3 : Memref sig .tc .vmem S1x64 .f32) (harg3 : arg3.IsWhole) (arg4 : Memref sig .tc .vmem S4096x64 .f32) (harg4 : arg4.IsWhole)
    (x0 : Vec F S4096x300 .f32) (x1 : Vec F S64x300 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__xc_kernel i arg1 harg1 arg2 harg2 arg3 harg3 arg4 harg4) K := by
  simp only [cc0__xc_kernel_eq_skeleton]; unfold cc0__xc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Shared.lean ====
/-
  Region 1 (the bipartite-match kernel on the grid [2, 8]): what its three control cases share. The body resets the
  accumulator scratch at the first step of the set axis (coordinate 1 = 0), adds one partial sum per batch row
  of the block to it at every step, and copies it to the output block at the last step (coordinate 1 = 7). The
  two conditions are decided over the sixteen grid points in closed form; the output window is idle and not
  written back wherever the last-step condition fails.
-/
import proofs.«179034_j15960098472410_1_alg».proof.Proof.Gen.KernelIdeal.Launch
import proofs.«179034_j15960098472410_1_alg».proof.Proof.Gen.KernelIdeal.Skeleton
import proofs.«179034_j15960098472410_1_alg».proof.Proof.Gen.KernelIdeal.Points
import proofs.«179034_j15960098472410_1_alg».proof.Proof.Gen.KernelIdeal.Loops
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the set-axis coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out condition: the set-axis coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S8x256 .f32 := (Memref.whole cc1_stg2_0 : Memref sig .tc .vmem S8x256 .f32).view
abbrev ms1_0 (t : Fin cfg1.N) : Memref sig .tc .vmem S8x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S8x256 .f32 := Memref.whole cc1_scratch0
abbrev VS1_0 : View sig .tc .vmem S8x256 .f32 := scM1_0.view

/-- The scoped buffers of the core that region 1 neither stages nor names: region 0's six staging buffers,
    each whole at some contents. -/
abbrev restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant of region 1 with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.R1RunA.lean ====
/-
  Region 1's body at the first step of the set axis (coordinate 1 = 0): the scratch is zero-filled, then the eight
  trips of the row loop each add one row's partial sum into it; nothing is written out.
-/
import proofs.«179034_j15960098472410_1_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) :
    { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunB.lean ====
/-
  Region 1's body in the case where neither condition holds (set-axis coordinate 1 to 6): nothing is reset and
  nothing is written out; the eight trips of the row loop each add one row's partial sum into the scratch.
-/
import proofs.«179034_j15960098472410_1_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) :
    { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunC.lean ====
/-
  Region 1's body at the last step of the set axis (coordinate 1 = 7): nothing is reset; the eight trips of the
  row loop each add one row's partial sum into the scratch, and the scratch is then copied whole into the output
  block.
-/
import proofs.«179034_j15960098472410_1_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, ?_, fun E K => ?run⟩
  case run =>
    simp only [cc1__lambda__eq_skeleton]; unfold cc1__lambda__skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R1Frame.lean ====
/-
  Region 1 (the bipartite-match kernel on the grid [2, 8]) as a pipeline: what the accumulator scratch holds after
  each grid point, by recursion on the point (reset at the first step of the set axis, one partial sum per batch row
  added at every step), what the output block holds at the last step of the set axis (a copy of the scratch), the
  region invariant that carries the scratch from point to point, the proof data and the body obligation. Stated at
  a parameter V, the core's buffer contents when the region is entered.
-/
import proofs.«179034_j15960098472410_1_alg».proof.Proof.R1RunA
import proofs.«179034_j15960098472410_1_alg».proof.Proof.R1RunB
import proofs.«179034_j15960098472410_1_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the scratch and in the output block -/

theorem scover1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) (y : S8x256.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x256.size (by sl_kernel_rfl) y

/-- The scratch after a first-step point: the eight rows the loop stored, read back. -/
def sout1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) : Vec F S8x256 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) (y : S8x256.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x256.size (by sl_kernel_rfl) y

/-- The scratch after a middle point, over what the point before left. -/
def sout1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_B c i arg2 harg2 arg3 harg3 arg4 harg4 arg5 harg5 hc0 hc1 x0 x1 xs0).1)

theorem scover1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x256.size (by sl_kernel_rfl) y

/-- The scratch after a last-step point, over what the point before left. -/
def sout1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x256.size (by sl_kernel_rfl) y

/-- The output block after a last-step point: the one whole store, read back. -/
def out1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VO1_2.read (Elt F) (VO1_2.writes (Elt F) VO1_2.junk (kernelRun1_C c i arg2 harg2 arg3 harg3 arg4 harg4 arg5 harg5 hc0 hc1 x0 x1 xs0).1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch and the output block point by point -/

/-- What the accumulator scratch holds after the body at position n. -/
def scAt1 (c : Dev nD) : (n : ℕ) → n < cfg1.N → Vec F S8x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 8 = 0 then
      if h1 : (n + 1) % 8 = 7 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 8 = 7 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (scAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (scAt1 c n (Nat.lt_of_succ_lt hn))

theorem scAt1_A (c : Dev nD) (t : Fin cfg1.N) (h0 : t.val % 8 = 0) (h1 : ¬t.val % 8 = 7) :
    scAt1 V c t.val t.isLt = sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem scAt1_B (c : Dev nD) (t : Fin cfg1.N) (h0 : ¬t.val % 8 = 0) (h1 : ¬t.val % 8 = 7) :
    scAt1 V c t.val t.isLt = sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt1_C (c : Dev nD) (t : Fin cfg1.N) (h0 : ¬t.val % 8 = 0) (h1 : t.val % 8 = 7) :
    scAt1 V c t.val t.isLt = sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at a last-step point the copy of the
    scratch; elsewhere the window is idle and not written back, and nothing reads this placeholder. -/
def outAt1 (c : Dev nD) (t : Fin cfg1.N) : Vec F S8x256 .f32 :=
  if h1 : t.val % 8 = 7 then
    out1_C_2 c (grid1.coords t) (ms1_0 t) (hs1_0 t) (ms1_1 t) (hs1_1 t) (ms1_2 t) (hs1_2 t) scM1_0 (Memref.isWhole_whole _) (fun h => (by have := (hcond1_0 t).mp h; omega)) ((hcond1_1 t).mpr h1) (iblk1 V c 0 t) (iblk1 V c 1 t) (scAt1 V c (t.val - 1) (Nat.lt_of_le_of_lt (Nat.sub_le _ _) t.isLt))
  else VO1_2.read (Elt F) VO1_2.junk

theorem outAt1_C (c : Dev nD) (t : Fin cfg1.N) (h0 : ¬t.val % 8 = 0) (h1 : t.val % 8 = 7) :
    outAt1 V c t = out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (scAt1 V c (t.val - 1) (Nat.lt_of_le_of_lt (Nat.sub_le _ _) t.isLt)) := by
  unfold outAt1; exact dif_pos h1

/-! ## The region invariant -/

/-- Before position n: at the region's entry the class invariant (every scoped buffer at anything); afterwards
    region 0's staging buffers at anything, the scratch at what the point before left, and the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (scAt1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

section Region1b
variable (V : (c : Dev nD) → (b : Ref sig .tc) → Buf (Elt F) ((c : Thread nD τ).loc b))

set_option maxHeartbeats 4800000 in
/-- The body at any point: the closed forms of the two conditions say which case the point is in; the invariant hands the
    body the scratch at what the point before left (at anything at the region's first point) and takes it back at this
    point's contents; the output block's buffer is handed back untouched wherever it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [scAt1_A V c t h0 h1]
      unfold sout1_A; (try dsimp only)
      by_cases hz : t.val = 0
      · rw [PhiS1_castSucc V c t, PhiS1_zero V c _ _ hz, PhiA1_eq]
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [scAt1_C V c t h0 h1, outAt1_C V c t h0 h1]
      unfold out1_C_2 sout1_C; (try dsimp only)
      have hz : t.val ≠ 0 := by omega
      rw [PhiS1_castSucc V c t, PhiS1_pos V c _ _ hz]
      iintro ⟨⟨⟨Ha, Hb, Hc, Hd, He, Hf, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [scAt1_B V c t h0 h1]
      unfold sout1_B; (try dsimp only)
      have hz : t.val ≠ 0 := by omega
      rw [PhiS1_castSucc V c t, PhiS1_pos V c _ _ hz]
      iintro ⟨⟨⟨Ha, Hb, Hc, Hd, He, Hf, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hz : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ hz, PhiA1_eq]
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

end Region1b

end Cert.KernelIdeal.Hand

end
-- ==== Proof.Launch.lean ====
/-
  The whole program: the buffer contents at each boundary between its four items (two host stretches, two kernel
  regions) as a fold from the launch memory, each region's proof data at its entry contents, the items as segments
  over the thread state "every unscoped buffer at the boundary's contents, the generator register at some state,
  nothing owed", and the run: every weakly fair execution terminates with every unscoped buffer at the last
  boundary's contents. The frame (each argument as launched) and the result array's contents are read off it.
-/
import proofs.«179034_j15960098472410_1_alg».proof.Proof.R0Frame
import proofs.«179034_j15960098472410_1_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what region 1's write-backs leave. -/
theorem W4_main_v5 (c : Dev nD) : W4 m c (Proc.devRef .tc main_v5) = (dat1 (V3 m) c).arrAt 2 cfg1.N := W4_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its invariant carries the
    accumulator scratch from point to point; it is entered from the class invariant and gives it back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m) c)
    unfold Pipeline.ΦA
    iintro ⟨Hp, -, Hr⟩
    isplitl [Hr]; · iexact Hr
    iexact Hp
  hout c := by
    refine Idealize.SL.BI.BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v5) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.V0Value.lean ====
/-
  Region 0's value. The projection kernel computes, block of 4096 rows by block, Xc = x · Wᵀ + b. Here: the block's
  arithmetic read at one index (the product into a zero accumulator is an inner product over the 300 contracted
  columns; both format changes are the identity on extended reals; the bias row is broadcast down the rows); the
  output block after the body as that arithmetic of the three loaded blocks; each loaded block as the part of its array
  the window's index map names at a grid point; so what point t writes back is block t of ONE function of the three
  arrays, xcRows; the four blocks tile the 16384 rows (row r lies in block r / 4096); hence the output array after the
  region is xcRows of the arrays as the region finds them.
-/
import proofs.«179034_j15960098472410_1_alg».proof.Proof.R0Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

/-! ## The block's arithmetic at an index -/

/-- The product's left operand keeps the result's row … -/
theorem lhs_xc_0 (i : S4096x64.Idx) (q : dot_S4096x300_S64x300_S4096x64_1_1_0_0_n_n.contr.Idx) :
    (dot_S4096x300_S64x300_S4096x64_1_1_0_0_n_n.lhsIdx i q 0).val = (i 0).val := by
  unfold DotDims.lhsIdx
  rw [dif_neg (show ¬(0 : Fin S4096x300.rank) ∈ dot_S4096x300_S64x300_S4096x64_1_1_0_0_n_n.lhsBatch by decide), dif_pos (show (0 : Fin S4096x300.rank) ∈ dot_S4096x300_S64x300_S4096x64_1_1_0_0_n_n.lhsNonContracting by decide)]
  rfl
/-- … and runs over the contracted axis on its columns. -/
theorem lhs_xc_1 (i : S4096x64.Idx) (q : dot_S4096x300_S64x300_S4096x64_1_1_0_0_n_n.contr.Idx) :
    (dot_S4096x300_S64x300_S4096x64_1_1_0_0_n_n.lhsIdx i q 1).val = (q ⟨0, by decide⟩).val :=
  dot_S4096x300_S64x300_S4096x64_1_1_0_0_n_n.lhsIdx_val_of_single rfl i q
/-- The right operand's row is the result's column … -/
theorem rhs_xc_0 (i : S4096x64.Idx) (q : dot_S4096x300_S64x300_S4096x64_1_1_0_0_n_n.contr.Idx) :
    (dot_S4096x300_S64x300_S4096x64_1_1_0_0_n_n.rhsIdx i q 0).val = (i 1).val := by
  unfold DotDims.rhsIdx
  rw [dif_neg (show ¬(0 : Fin S64x300.rank) ∈ dot_S4096x300_S64x300_S4096x64_1_1_0_0_n_n.rhsBatch by decide), dif_pos (show (0 : Fin S64x300.rank) ∈ dot_S4096x300_S64x300_S4096x64_1_1_0_0_n_n.rhsNonContracting by decide)]
  rfl
/-- … and it too runs over the contracted axis on its columns. -/
theorem rhs_xc_1 (i : S4096x64.Idx) (q : dot_S4096x300_S64x300_S4096x64_1_1_0_0_n_n.contr.Idx) :
    (dot_S4096x300_S64x300_S4096x64_1_1_0_0_n_n.rhsIdx i q 1).val = (q ⟨0, by decide⟩).val :=
  dot_S4096x300_S64x300_S4096x64_1_1_0_0_n_n.rhsIdx_val_of_single rfl i q

/-- The product into the zero accumulator, at row p and column q: the inner product of row p of the left operand with
    row q of the right one. -/
theorem matmul_xc_apply (a : FVec Ideal S4096x300 .bf16) (b : FVec Ideal S64x300 .bf16) (p : Fin 4096) (q : Fin 64) :
    matmul (F := Ideal) dot_S4096x300_S64x300_S4096x64_1_1_0_0_n_n none a b (constant (F := Ideal) S4096x64 .f32 0x00000000#32) (ix2 p q)
      = ∑ d : Fin 300, a (ix2 p d) * b (ix2 q d) := by
  refine (Ideal.matmul_constant_zero_apply dot_S4096x300_S64x300_S4096x64_1_1_0_0_n_n none a b (ix2 p q)).trans ?_
  rw [← Equiv.sum_comp (ValueIdx.contrEquiv1 dot_S4096x300_S64x300_S4096x64_1_1_0_0_n_n 300 rfl rfl).symm]
  refine Finset.sum_congr rfl fun k _ => ?_
  have hk := ValueIdx.contrEquiv1_symm_val dot_S4096x300_S64x300_S4096x64_1_1_0_0_n_n 300 rfl rfl k
  have el : dot_S4096x300_S64x300_S4096x64_1_1_0_0_n_n.lhsIdx (ix2 p q) ((ValueIdx.contrEquiv1 dot_S4096x300_S64x300_S4096x64_1_1_0_0_n_n 300 rfl rfl).symm k) = ix2 p k := funext fun a => Fin.ext (by
    match a with
    | ⟨0, _⟩ => exact lhs_xc_0 _ _
    | ⟨1, _⟩ => exact (lhs_xc_1 _ _).trans hk)
  have er : dot_S4096x300_S64x300_S4096x64_1_1_0_0_n_n.rhsIdx (ix2 p q) ((ValueIdx.contrEquiv1 dot_S4096x300_S64x300_S4096x64_1_1_0_0_n_n 300 rfl rfl).symm k) = ix2 q k := funext fun a => Fin.ext (by
    match a with
    | ⟨0, _⟩ => exact rhs_xc_0 _ _
    | ⟨1, _⟩ => exact (rhs_xc_1 _ _).trans hk)
  rw [el, er]

/-- THE BLOCK'S ARITHMETIC AT ROW p, COLUMN q: the inner product of row p of the x block with row q of the weight,
    plus the bias at q. (Both format changes are the identity on extended reals.) -/
theorem pay_xc_apply (x0 : Vec Ideal S4096x300 .f32) (x1 : Vec Ideal S64x300 .f32) (x2 : Vec Ideal S1x64 .f32) (p : Fin 4096) (q : Fin 64) :
    k0_pay1 (F := Ideal) x0 x1 x2 (ix2 p q) = (∑ d : Fin 300, x0 (ix2 p d) * x1 (ix2 q d)) + x2 (ix2 (0 : Fin 1) q) := by
  unfold k0_pay1
  rw [addf_apply, matmul_xc_apply, shapeCast_self, shapeCast_self, broadcastTo_1b_ab_apply]
  rfl

/-! ## The specification -/

/-- Row r, feature k of the projection: the inner product of row r of x with row k of w, plus bias k. -/
def xcRows (x : (⟨2, ![16384, 300]⟩ : Shape).Idx → EReal) (w : (⟨2, ![64, 300]⟩ : Shape).Idx → EReal) (b : (⟨2, ![1, 64]⟩ : Shape).Idx → EReal) : (⟨2, ![16384, 64]⟩ : Shape).Idx → EReal :=
  fun j => (∑ d : Fin 300, x (ValueIdx.ix2 (j 0) d) * w (ValueIdx.ix2 (j 1) d)) + b (ValueIdx.ix2 (0 : Fin 1) (j 1))

/-- The projection at row r, column q, with the index given by its coordinates. -/
theorem xcRows_ix2 (x : (⟨2, ![16384, 300]⟩ : Shape).Idx → EReal) (w : (⟨2, ![64, 300]⟩ : Shape).Idx → EReal) (b : (⟨2, ![1, 64]⟩ : Shape).Idx → EReal)
    (r : Fin 16384) (q : Fin 64) :
    xcRows x w b (ix2 r q) = (∑ d : Fin 300, x (ix2 r d) * w (ix2 q d)) + b (ix2 (0 : Fin 1) q) := rfl

/-! ## One grid point: the output block is the payload of the loaded blocks -/

theorem zero_offsets : (![0, 0] : Fin 2 → Nat) = fun _ => 0 := funext fun a => by fin_cases a <;> rfl

/-- The body loads its three blocks whole and stores one whole block: what it leaves is the payload of the blocks. -/
theorem out_xc_eq (x0 : Vec Ideal S4096x300 .f32) (x1 : Vec Ideal S64x300 .f32) (x2 : Vec Ideal S1x64 .f32) :
    out0_3 (F := Ideal) x0 x1 x2 = k0_pay1 (F := Ideal) x0 x1 x2 := by
  unfold out0_3
  rw [View.canon_unit_zero zero_offsets]
  simp only [View.ld_unit_zero (S := S4096x300) zero_offsets, View.ld_unit_zero (S := S64x300) zero_offsets, View.ld_unit_zero (S := S1x64) zero_offsets]

/-- ONE POINT, over blocks and arrays given as variables: if the x block is rows n·4096 … n·4096 + 4095 of the array X,
    the weight block is W and the bias block is B, then the payload at (p, q) is the projection of X, W, B at row
    n·4096 + p, column q. -/
theorem block_xc (X : S16384x300.Idx → EReal) (W : S64x300.Idx → EReal) (B : S1x64.Idx → EReal)
    (x0 : Vec Ideal S4096x300 .f32) (x1 : Vec Ideal S64x300 .f32) (x2 : Vec Ideal S1x64 .f32) (n : ℕ)
    (h0 : ∀ (p : Fin 4096) (d : Fin 300) (r : Fin 16384), r.val = n * 4096 + p.val → x0 (ix2 p d) = X (ix2 r d))
    (h1 : ∀ (q : Fin 64) (d : Fin 300), x1 (ix2 q d) = W (ix2 q d))
    (h2 : ∀ q : Fin 64, x2 (ix2 (0 : Fin 1) q) = B (ix2 (0 : Fin 1) q))
    (y : S4096x64.Idx) (i : S16384x64.Idx) (hi0 : (i 0).val = n * 4096 + (y 0).val) (hi1 : (i 1).val = (y 1).val) :
    k0_pay1 (F := Ideal) x0 x1 x2 y = xcRows X W B i := by
  obtain ⟨p, q, rfl⟩ : ∃ (p : Fin 4096) (q : Fin 64), y = ix2 p q := ⟨y 0, y 1, eq_ix2 y⟩
  obtain ⟨r, q', rfl⟩ : ∃ (r : Fin 16384) (q' : Fin 64), i = ix2 r q' := ⟨i 0, i 1, eq_ix2 i⟩
  obtain rfl : q' = q := Fin.ext hi1
  rw [pay_xc_apply, xcRows_ix2, h2]
  congr 1
  refine Finset.sum_congr rfl fun d _ => ?_
  rw [h0 p d r hi0, h1]

/-! ## The windows' index maps over the grid, and each block read off its array -/

/-- The printed index maps, decided over the four points: the x window and the output window move down one block of
    rows per point; the weight and the bias windows stay. -/
theorem idx_xc : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region0
variable (V : (c : Dev nD) → (b : Ref sig .tc) → Buf (Elt Ideal) ((c : Thread nD τ).loc b))

/-- The x block at point t is rows t·4096 … t·4096 + 4095 of the x array. -/
theorem iblk_x_apply (c : Dev nD) (t : Fin cfg0.N) (p : Fin 4096) (d : Fin 300) (r : Fin 16384) (hr : r.val = t.val * 4096 + p.val) :
    (iblk0 (F := Ideal) V c 0 t : Vec Ideal S4096x300 .f32) (ix2 p d) = (V c main_v1 : S16384x300.Idx → EReal) (ix2 r d) := by
  obtain ⟨e0, e1, -⟩ := idx_xc t
  unfold iblk0
  rw [View.read_apply]
  show V c main_v1 _ = V c main_v1 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 300 + 1 * d.val = d.val; rw [e1]; omega

/-- The weight block at every point is the whole weight array. -/
theorem iblk_w_apply (c : Dev nD) (t : Fin cfg0.N) (q : Fin 64) (d : Fin 300) :
    (iblk0 (F := Ideal) V c 1 t : Vec Ideal S64x300 .f32) (ix2 q d) = (V c main_arg1 : S64x300.Idx → EReal) (ix2 q d) := by
  obtain ⟨-, -, e0, e1, -⟩ := idx_xc t
  unfold iblk0
  rw [View.read_apply]
  show V c main_arg1 _ = V c main_arg1 _
  congr 1
  funext a
  apply Fin.ext
  match a with
  | ⟨0, _⟩ => show win0_1.index t (0 : Fin 2) * 64 + 1 * q.val = q.val; rw [e0]; omega
  | ⟨1, _⟩ => show win0_1.index t (1 : Fin 2) * 300 + 1 * d.val = d.val; rw [e1]; omega

/-- The bias block at every point is the whole bias row. -/
theorem iblk_b_apply (c : Dev nD) (t : Fin cfg0.N) (q : Fin 64) :
    (iblk0 (F := Ideal) V c 2 t : Vec Ideal S1x64 .f32) (ix2 (0 : Fin 1) q) = (V c main_v0 : S1x64.Idx → EReal) (ix2 (0 : Fin 1) q) := by
  obtain ⟨-, -, -, -, e0, e1, -⟩ := idx_xc t
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 64 + 1 * q.val = q.val; rw [e1]; omega

/-- WHAT POINT t WRITES BACK is block t of the projection of the arrays as the region finds them. -/
theorem flushed_xc_eq (c : Dev nD) (t : Fin cfg0.N) :
    (dat0 (F := Ideal) V c).flushed 3 t
      = ((cfg0.win 3).blk t).view.read (Elt Ideal) (xcRows (V c main_v1) (V c main_arg1) (V c main_v0)) := by
  show (cfg0.win 3).cut (grid0.coords t) ((dat0 (F := Ideal) V c).after 3 t) = _
  rw [after0_3, out_xc_eq]
  obtain ⟨-, -, -, -, -, -, e0, e1⟩ := idx_xc t
  funext j
  show k0_pay1 (F := Ideal) (iblk0 V c 0 t) (iblk0 V c 1 t) (iblk0 V c 2 t) ((cfg0.win 3).xinj (grid0.coords t) j)
    = xcRows (V c main_v1) (V c main_arg1) (V c main_v0) (((cfg0.win 3).blk t).view.emb j)
  refine block_xc _ _ _ _ _ _ t.val (iblk_x_apply V c t) (iblk_w_apply V c t) (iblk_b_apply V c t) _ _ ?_ ?_
  · show win0_3.index t (0 : Fin 2) * 4096 + 1 * (j 0).val = t.val * 4096 + (j 0).val
    rw [e0]; omega
  · show win0_3.index t (1 : Fin 2) * 64 + 1 * (j 1).val = (j 1).val
    rw [e1]; omega

/-- An index of the output array is in point t's block iff each coordinate is in the block's range on its axis. -/
theorem mem_blk_xc (t : Fin cfg0.N) (i : S16384x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v2).slice (win0_3.rect t)).set ↔ _
  rw [View.set_slice_whole, Rect.mem_set_unit]
  exact Iff.rfl

/-- Row r of the output array lies in the block of point r / 4096, and every point writes its block back. -/
theorem cover_xc (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 4 := N_0
  refine ⟨⟨(i 0).val / 4096, by rw [hN]; omega⟩, flush0_3 _, ?_⟩
  rw [mem_blk_xc]
  obtain ⟨-, -, -, -, -, -, e0, e1⟩ := idx_xc ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e0]; show (i 0).val / 4096 * 4096 ≤ (i 0).val ∧ (i 0).val < (i 0).val / 4096 * 4096 + 4096; omega
  | ⟨1, _⟩ =>
    show win0_3.index _ (1 : Fin 2) * 64 ≤ (i 1).val ∧ (i 1).val < win0_3.index _ (1 : Fin 2) * 64 + 64
    rw [e1]; omega

/-- THE OUTPUT ARRAY after the region: the projection of the x array, the weight and the bias as the region finds them. -/
theorem final0 (c : Dev nD) :
    (dat0 (F := Ideal) V c).arrAt 3 cfg0.N = xcRows (V c main_v1) (V c main_arg1) (V c main_v0) :=
  (dat0 (F := Ideal) V c).arrAt_eq_of_cover 3 (xcRows (V c main_v1) (V c main_arg1) (V c main_v0))
    (fun t _ => flushed_xc_eq V c t) cover_xc

end Region0

end Cert.KernelIdeal.Hand

end
-- ==== Proof.Spec.lean ====
/-
  What both programs compute, index by index over the extended reals: every set element is projected to 64
  features (a 300-term inner product with a weight row, plus the bias), matched against each of the 64 elements of
  each of the 256 hidden sets by a 64-term inner product clipped below at zero, the best match over a hidden set's
  elements is taken (a maximum from minus infinity), and the best matches are summed over the 1024 elements of the
  set.
-/
import Idealize.ShloMosaic.PureOps.Ideal
import Idealize.ShloMosaic.Lib.ValueIdx

noncomputable section

open scoped BigOperators

namespace Cert.Spec

open Idealize.ShloMosaic Idealize.ShloMosaic.ValueIdx

/-- The word of minus infinity both maxima start from, and the zero word both clips use; neither is ever evaluated. -/
abbrev negInf : EReal := Ideal.ofBits .f32 0xFF800000#32
abbrev zeroW : EReal := Ideal.ofBits .f32 0x00000000#32

variable (X : (⟨3, ![16, 1024, 300]⟩ : Shape).Idx → EReal) (W : (⟨2, ![64, 300]⟩ : Shape).Idx → EReal)
  (bv : (⟨1, ![64]⟩ : Shape).Idx → EReal) (H : (⟨3, ![256, 64, 64]⟩ : Shape).Idx → EReal)

/-- Feature k of element s of set b: the inner product of the element with weight row k, plus bias k. -/
def proj (b : Fin 16) (s : Fin 1024) (k : Fin 64) : EReal :=
  (∑ d : Fin 300, X (ix3 b s d) * W (ix2 k d)) + bv (ix1 k)

/-- The match of element s of set b against element n of hidden set o, clipped below at zero. -/
def score (b : Fin 16) (s : Fin 1024) (o : Fin 256) (n : Fin 64) : EReal :=
  max (∑ k : Fin 64, proj X W bv b s k * H (ix3 o n k)) zeroW

/-- The best match of element s of set b within hidden set o. -/
def best (b : Fin 16) (s : Fin 1024) (o : Fin 256) : EReal :=
  (Finset.univ : Finset (Fin 64)).fold max negInf (fun n => score X W bv H b s o n)

/-- The result: per set and hidden set, the best matches summed over the set's elements. -/
def G : (⟨2, ![16, 256]⟩ : Shape).Idx → EReal :=
  fun j => ∑ s : Fin 1024, best X W bv H (j 0) s (j 1)

end Cert.Spec

end
-- ==== Proof.V1Pay.lean ====
/-
  One row update of region 1's accumulator read at an entry, over the extended reals: the row's old entry plus the
  sum over the 128 set elements of the block's batch row of the best clipped match against hidden set o.
-/
import proofs.«179034_j15960098472410_1_alg».proof.Proof.Gen.KernelIdeal.Skeleton
import proofs.«179034_j15960098472410_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The block product at an entry

Both operands keep axis 0 and contract axis 1: the left operand's index at output (s, c) and contraction
coordinate k is (s, k), the right operand's is (c, k). -/

theorem pay2_lhs_0 (i : S128x16384.Idx) (q : dot_S128x64_S16384x64_S128x16384_1_1_0_0_n_n.contr.Idx) :
    (dot_S128x64_S16384x64_S128x16384_1_1_0_0_n_n.lhsIdx i q 0).val = (i 0).val := by
  unfold DotDims.lhsIdx
  rw [dif_neg (show ¬(0 : Fin S128x64.rank) ∈ dot_S128x64_S16384x64_S128x16384_1_1_0_0_n_n.lhsBatch by decide), dif_pos (show (0 : Fin S128x64.rank) ∈ dot_S128x64_S16384x64_S128x16384_1_1_0_0_n_n.lhsNonContracting by decide)]
  rfl
theorem pay2_lhs_1 (i : S128x16384.Idx) (q : dot_S128x64_S16384x64_S128x16384_1_1_0_0_n_n.contr.Idx) :
    (dot_S128x64_S16384x64_S128x16384_1_1_0_0_n_n.lhsIdx i q 1).val = (q ⟨0, by decide⟩).val :=
  dot_S128x64_S16384x64_S128x16384_1_1_0_0_n_n.lhsIdx_val_of_single rfl i q
theorem pay2_rhs_0 (i : S128x16384.Idx) (q : dot_S128x64_S16384x64_S128x16384_1_1_0_0_n_n.contr.Idx) :
    (dot_S128x64_S16384x64_S128x16384_1_1_0_0_n_n.rhsIdx i q 0).val = (i 1).val := by
  unfold DotDims.rhsIdx
  rw [dif_neg (show ¬(0 : Fin S16384x64.rank) ∈ dot_S128x64_S16384x64_S128x16384_1_1_0_0_n_n.rhsBatch by decide), dif_pos (show (0 : Fin S16384x64.rank) ∈ dot_S128x64_S16384x64_S128x16384_1_1_0_0_n_n.rhsNonContracting by decide)]
  rfl
theorem pay2_rhs_1 (i : S128x16384.Idx) (q : dot_S128x64_S16384x64_S128x16384_1_1_0_0_n_n.contr.Idx) :
    (dot_S128x64_S16384x64_S128x16384_1_1_0_0_n_n.rhsIdx i q 1).val = (q ⟨0, by decide⟩).val :=
  dot_S128x64_S16384x64_S128x16384_1_1_0_0_n_n.rhsIdx_val_of_single rfl i q

set_option maxHeartbeats 400000 in
/-- The block product into a zero accumulator at (s, c): the 64-term inner product of row s of the left operand
    with row c of the right. -/
theorem pay2_matmul_at {φ₁ φ₂ : FTy} (A : FVec Ideal S128x64 φ₁) (B : FVec Ideal S16384x64 φ₂) (s : Fin 128) (c : Fin 16384) :
    matmul dot_S128x64_S16384x64_S128x16384_1_1_0_0_n_n none A B (constant (F := Ideal) S128x16384 .f32 0x00000000#32) (ix2 s c)
      = ∑ k : Fin 64, A (ix2 s k) * B (ix2 c k) := by
  show FloatOps.matmul dot_S128x64_S16384x64_S128x16384_1_1_0_0_n_n none A B (constant S128x16384 .f32 0x00000000#32) (ix2 s c) = _
  rw [Ideal.matmul_constant_zero_apply, ← Equiv.sum_comp (ValueIdx.contrEquiv1 dot_S128x64_S16384x64_S128x16384_1_1_0_0_n_n 64 rfl rfl).symm]
  refine Finset.sum_congr rfl fun k _ => ?_
  have hk := ValueIdx.contrEquiv1_symm_val dot_S128x64_S16384x64_S128x16384_1_1_0_0_n_n 64 rfl rfl k
  have el : dot_S128x64_S16384x64_S128x16384_1_1_0_0_n_n.lhsIdx (ix2 s c) ((ValueIdx.contrEquiv1 dot_S128x64_S16384x64_S128x16384_1_1_0_0_n_n 64 rfl rfl).symm k) = ix2 s k := funext fun a => Fin.ext (by
    match a with
    | ⟨0, _⟩ => exact pay2_lhs_0 _ _
    | ⟨1, _⟩ => exact (pay2_lhs_1 _ _).trans hk)
  have er : dot_S128x64_S16384x64_S128x16384_1_1_0_0_n_n.rhsIdx (ix2 s c) ((ValueIdx.contrEquiv1 dot_S128x64_S16384x64_S128x16384_1_1_0_0_n_n 64 rfl rfl).symm k) = ix2 c k := funext fun a => Fin.ext (by
    match a with
    | ⟨0, _⟩ => exact pay2_rhs_0 _ _
    | ⟨1, _⟩ => exact (pay2_rhs_1 _ _).trans hk)
  rw [el, er]

/-! ## The shape casts at an entry -/

/-- The hidden sets flattened to 16384 rows: row n · 256 + o is element n of hidden set o. -/
theorem pay2_rows_at {α : Type} (x : S64x256x64.Idx → α) (h : S64x256x64.ShapeCasts S16384x64)
    (n : Fin 64) (o : Fin 256) (k : Fin 64) (c : Fin 16384) (hc : c.val = n.val * 256 + o.val) :
    shapeCast S16384x64 x h (ix2 c k) = x (ix3 n o k) :=
  shapeCast_apply x h _ _ (by
    rw [Shape.rowMajor_val_three, Shape.rowMajor_val_two]
    show (n.val * 256 + o.val) * 64 + k.val = c.val * 64 + k.val
    rw [hc])

/-- The 16384 columns of the product split back into (n, o): column n · 256 + o. -/
theorem pay2_cols_at {α : Type} (y : S128x16384.Idx → α) (h : S128x16384.ShapeCasts S128x64x256)
    (s : Fin 128) (n : Fin 64) (o : Fin 256) (c : Fin 16384) (hc : c.val = n.val * 256 + o.val) :
    shapeCast S128x64x256 y h (ix3 s n o) = y (ix2 s c) :=
  shapeCast_apply y h _ _ (by
    rw [Shape.rowMajor_val_three, Shape.rowMajor_val_two]
    show s.val * 16384 + c.val = (s.val * 64 + n.val) * 256 + o.val
    rw [hc]; omega)

/-! ## The two reductions at an entry -/

/-- The maximum over the middle axis from the word of minus infinity: the fold of max over n. -/
theorem pay2_max_at (src : FVec Ideal S128x64x256 .f32) (h : S128x64x256.Reduces [1] S128x256)
    (hφ : FKind.Formats .f32) (hacc : (0xFF800000#32 : BitVec (FTy.bits .f32)) = FKind.maximumf.neutral .f32 hφ)
    (s : Fin 128) (o : Fin 256) :
    multiReduction (F := Ideal) .maximumf [1] S128x256 src 0xFF800000#32 h hφ hacc (ix2 s o)
      = (Finset.univ : Finset (Fin 64)).fold max Cert.Spec.negInf (fun n => src (ix3 s n o)) := by
  refine (Ideal.multiReduction_maximumf_single src _ h hφ hacc (ix2 s o)).trans ?_
  have e : (src ∘ h.lift (ix2 s o) : Fin 64 → EReal) = fun n => src (ix3 s n o) := funext fun n =>
    congrArg src (funext fun a => Fin.ext (by
      match a with
      | ⟨0, _⟩ => rfl
      | ⟨1, _⟩ => rfl
      | ⟨2, _⟩ => rfl))
  exact congrArg (fun f : Fin 64 → EReal => (Finset.univ : Finset (Fin 64)).fold max Cert.Spec.negInf f) e

/-- The sum over the leading axis from the zero word: the plain sum over s. -/
theorem pay2_sum_at (src : FVec Ideal S128x256 .f32) (h : S128x256.Reduces [0] S256)
    (hφ : FKind.Formats .f32) (hacc : (0x00000000#32 : BitVec (FTy.bits .f32)) = FKind.add.neutral .f32 hφ) (o : Fin 256) :
    multiReduction (F := Ideal) .add [0] S256 src 0x00000000#32 h hφ hacc (ix1 o)
      = ∑ s : Fin 128, src (ix2 s o) := by
  refine (Ideal.multiReduction_add_single src _ h hφ hacc (ix1 o)).trans ?_
  refine Finset.sum_congr rfl fun s _ => ?_
  exact congrArg src (funext fun a => Fin.ext (by
    match a with
    | ⟨0, _⟩ => rfl
    | ⟨1, _⟩ => rfl))

/-! ## The row update at an entry -/

/-- The column index n · 256 + o of the flattened hidden sets. -/
def pay2_col (n : Fin 64) (o : Fin 256) : Fin 16384 := ⟨n.val * 256 + o.val, by omega⟩

set_option maxHeartbeats 400000 in
theorem k1_pay2_apply (v3 : Vec Ideal S64x256x64 .f32) (v12 : Vec Ideal S1x128x64 .f32) (v22 : Vec Ideal S1x256 .f32) (o : Fin 256) :
    k1_pay2 (F := Ideal) v3 v12 v22 (ix2 (0 : Fin 1) o)
      = v22 (ix2 (0 : Fin 1) o) + ∑ s : Fin 128, (Finset.univ : Finset (Fin 64)).fold max Cert.Spec.negInf
          (fun n => max (∑ k : Fin 64, v12 (ix3 (0 : Fin 1) s k) * v3 (ix3 n o k)) Cert.Spec.zeroW) := by
  unfold k1_pay2
  refine (shapeCast_a_1a_apply _ _ _ _).trans ?_
  refine (addf_apply _ _ _).trans ?_
  refine congrArg₂ (· + ·) (shapeCast_1a_a_apply _ _ _) ?_
  refine (pay2_sum_at _ _ _ _ o).trans ?_
  refine Finset.sum_congr rfl fun s _ => ?_
  refine (pay2_max_at _ _ _ _ s o).trans ?_
  refine congrArg (fun f : Fin 64 → EReal => (Finset.univ : Finset (Fin 64)).fold max Cert.Spec.negInf f) (funext fun n => ?_)
  refine (maximumf_apply _ _ _).trans ?_
  refine congrArg₂ max ?_ rfl
  refine (pay2_cols_at _ _ s n o (pay2_col n o) rfl).trans ?_
  refine (pay2_matmul_at _ _ s (pay2_col n o)).trans ?_
  refine Finset.sum_congr rfl fun k _ => ?_
  refine congrArg₂ (· * ·) ?_ ?_
  · refine (truncf_apply (ψ := .bf16) _ bitsLt_bf16_f32 _).trans ?_
    exact shapeCast_1ab_ab_apply _ _ s k
  · refine (truncf_apply (ψ := .bf16) _ bitsLt_bf16_f32 _).trans ?_
    refine (pay2_rows_at _ _ n o k (pay2_col n o) rfl).trans ?_
    rw [shapeCast_self]

/-- The zero fill at an entry. -/
theorem k1_pay1_apply (j : S8x256.Idx) : k1_pay1 (F := Ideal) j = 0 := by
  unfold k1_pay1
  rw [shapeCast_self]
  exact Ideal.ofBits_zero_f32

end Cert.KernelIdeal.Hand

end
-- ==== Proof.V1Step.lean ====
/-
  Region 1's body read as values over the extended reals: one grid step adds to every entry (r, o) of the 8 × 256
  accumulator the step's partial sum — over the 128 set elements of the step's block of batch row r, the best match
  (the maximum from minus infinity over the 64 elements of hidden set o of the inner product clipped below at zero);
  the first step starts from zero, and the last step's output block is a copy of the accumulator.
-/
import proofs.«179034_j15960098472410_1_alg».proof.Proof.R1Frame
import proofs.«179034_j15960098472410_1_alg».proof.Proof.Spec
import proofs.«179034_j15960098472410_1_alg».proof.Proof.V1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- One grid step's partial sum for batch row r of the block and hidden set o. -/
def stepSum (x0 : Vec Ideal S8x128x64 .f32) (x1 : Vec Ideal S64x256x64 .f32) (r : Fin 8) (o : Fin 256) : EReal :=
  ∑ s : Fin 128, (Finset.univ : Finset (Fin 64)).fold max Cert.Spec.negInf
    (fun n => max (∑ k : Fin 64, x0 (ix3 r s k) * x1 (ix3 n o k)) Cert.Spec.zeroW)

/-! ## The row loop: one piece per trip, row k written once, by trip k -/

section Loop
variable {F : FTy → Type} [FloatOps F]

theorem step1_trips_eq : k1_t1_loop.trips = 8 := by decide

/-- The rectangle of row k of the accumulator, and of batch row k of the block. -/
abbrev step1_R2 (k : Fin k1_t1_loop.trips) : Rect S8x256 := Rect.unit (s := S8x256) (k1_off2 k) S1x256.size (k1_off2_inb k)
abbrev step1_R1 (k : Fin k1_t1_loop.trips) : Rect S8x128x64 := Rect.unit (s := S8x128x64) (k1_off1 k) S1x128x64.size (k1_off1_inb k)

/-- What one trip stores: through row k, the row update of batch row k of the block and of row k as the trip finds it. -/
theorem step1_tripL_eq (𝒱 : Variants) (bd : Option 𝒱.V) (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (v3 : Vec F S64x256x64 .f32) (X : BufTy.Contents (Elt F) arg2.view.ty) (k : Fin k1_t1_loop.trips) (f : BufTy.Contents (Elt F) arg5.view.ty) :
    tripL_k1_t1 (F := F) 𝒱 c bd i arg2 harg2 arg3 harg3 arg4 harg4 arg5 harg5 v3 X k f
      = [⟨step1_R2 k, k1_pay2 v3 (arg2.view.readAt (Elt F) (step1_R1 k).toLoadRect X) (arg5.view.readAt (Elt F) (step1_R2 k).toLoadRect f)⟩] := by
  unfold tripL_k1_t1 trip_k1_t1
  rfl

/-- Row r as a trip. -/
abbrev step1_kOf (r : Fin 8) : Fin k1_t1_loop.trips := ⟨r.val, by rw [step1_trips_eq]; exact r.isLt⟩

theorem step1_off2_0 (k : Fin k1_t1_loop.trips) : k1_off2 k 0 = k.val := congrFun (k1_off2_eq k) 0
theorem step1_off2_1 (k : Fin k1_t1_loop.trips) : k1_off2 k 1 = 0 := congrFun (k1_off2_eq k) 1
theorem step1_off1_0 (k : Fin k1_t1_loop.trips) : k1_off1 k 0 = k.val := congrFun (k1_off1_eq k) 0
theorem step1_off1_1 (k : Fin k1_t1_loop.trips) : k1_off1 k 1 = 0 := congrFun (k1_off1_eq k) 1
theorem step1_off1_2 (k : Fin k1_t1_loop.trips) : k1_off1 k 2 = 0 := congrFun (k1_off1_eq k) 2

/-- After n trips, rows below n hold their update (of the row as the loop found it) and the others what the loop found. -/
theorem step1_loop_read (𝒱 : Variants) (bd : Option 𝒱.V) (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (v3 : Vec F S64x256x64 .f32) (X : BufTy.Contents (Elt F) arg2.view.ty) (G : BufTy.Contents (Elt F) arg5.view.ty) :
    ∀ (n : ℕ), n ≤ 8 → ∀ (r : Fin 8) (o : Fin 256),
      arg5.view.read (Elt F) (arg5.view.writes (Elt F) G (pb_k1_t1 (F := F) 𝒱 c bd i arg2 harg2 arg3 harg3 arg4 harg4 arg5 harg5 v3 X G n)) (ix2 r o)
        = if r.val < n then k1_pay2 v3 (arg2.view.readAt (Elt F) (step1_R1 (step1_kOf r)).toLoadRect X) (View.ld (arg5.view.read (Elt F) G) (step1_R2 (step1_kOf r))) (ix2 (0 : Fin 1) o)
          else arg5.view.read (Elt F) G (ix2 r o) := by
  intro n
  induction n with
  | zero =>
    intro _ r o
    rw [if_neg (Nat.not_lt_zero _)]
    rfl
  | succ n ih =>
    intro hn r o
    have hn' : n < k1_t1_loop.trips := by rw [step1_trips_eq]; omega
    have hsucc := pb_k1_t1_succ (F := F) 𝒱 c bd i arg2 harg2 arg3 harg3 arg4 harg4 arg5 harg5 v3 X G ⟨n, hn'⟩
    dsimp only at hsucc
    rw [hsucc, View.writes_append, step1_tripL_eq, View.writes_singleton]
    have h0 := step1_off2_0 ⟨n, hn'⟩
    have h1 := step1_off2_1 ⟨n, hn'⟩
    by_cases hr : r.val = n
    · have he : ix2 r o = (step1_R2 ⟨n, hn'⟩).emb (ix2 (0 : Fin 1) o) := funext fun a => Fin.ext (by
        rw [Rect.emb_apply]
        match a with
        | ⟨0, _⟩ => show r.val = k1_off2 ⟨n, hn'⟩ 0 + 1 * 0; rw [h0]; omega
        | ⟨1, _⟩ => show o.val = k1_off2 ⟨n, hn'⟩ 1 + 1 * o.val; rw [h1]; omega)
      rw [if_pos (by omega), he, View.read_slice_write_emb _ _ _ (Finset.mem_univ _), show step1_kOf r = ⟨n, hn'⟩ from Fin.ext hr]
      refine congrFun (congrArg (k1_pay2 v3 _) (funext fun x => ?_)) _
      show arg5.view.read (Elt F) _ ((step1_R2 ⟨n, hn'⟩).idx x) = arg5.view.read (Elt F) G ((step1_R2 ⟨n, hn'⟩).idx x)
      have hj0 : (((step1_R2 ⟨n, hn'⟩).idx x) 0).val = n := by
        show k1_off2 ⟨n, hn'⟩ 0 + 1 * (x 0).val = n
        have hx : (x 0).val < 1 := (x 0).isLt
        rw [h0]; show n + 1 * (x 0).val = n; omega
      generalize (step1_R2 ⟨n, hn'⟩).idx x = j at hj0 ⊢
      obtain ⟨r', o', rfl⟩ : ∃ (r' : Fin 8) (o' : Fin 256), j = ix2 r' o' := ⟨j 0, j 1, eq_ix2 j⟩
      have hr' : r'.val = n := hj0
      rw [ih (by omega) r' o', if_neg (by omega)]
    · have hnm : ix2 r o ∉ Finset.univ.map (step1_R2 ⟨n, hn'⟩).emb := by
        rw [Rect.map_emb_univ, Rect.mem_set_unit]
        intro h
        have h' := h 0
        rw [h0] at h'
        have h1' : r.val < n + 1 := h'.2
        have h2' : n ≤ r.val := h'.1
        omega
      rw [View.read_slice_write_of_not_mem _ _ _ _ hnm, ih (by omega) r o]
      by_cases hlt : r.val < n
      · rw [if_pos hlt, if_pos (by omega)]
      · rw [if_neg hlt, if_neg (by omega)]

end Loop

/-! ## The stores of each control case, listed: the loop's pieces (after the zero fill in the first case), and the last case's one whole store of the accumulator read back -/

section Runs
variable {F : FTy → Type} [FloatOps F]

theorem step1_runB_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) :
    (kernelRun1_B (F := F) c i arg2 harg2 arg3 harg3 arg4 harg4 arg5 harg5 hc0 hc1 x0 x1 xs0).1
      = pb_k1_t1 (F := F) Variants.none c none i arg2 harg2 arg3 harg3 arg4 harg4 arg5 harg5 (arg3.view.readAt (Elt F) (Rect.unit (s := S64x256x64) ![0, 0, 0] S64x256x64.size inb_S64x256x64_S64x256x64_0_0_0).toLoadRect (harg3.unread x1)) (harg2.unread x0) (harg5.unread xs0) k1_t1_loop.trips := by
  unfold kernelRun1_B
  rfl

theorem step1_runA_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) :
    (kernelRun1_A (F := F) c i arg2 harg2 arg3 harg3 arg4 harg4 arg5 harg5 hc0 hc1 x0 x1).1
      = pb_k1_t1 (F := F) Variants.none c none i arg2 harg2 arg3 harg3 arg4 harg4 arg5 harg5 (arg3.view.readAt (Elt F) (Rect.unit (s := S64x256x64) ![0, 0, 0] S64x256x64.size inb_S64x256x64_S64x256x64_0_0_0).toLoadRect (harg3.unread x1)) (harg2.unread x0)
          (arg5.view.writes (Elt F) arg5.view.junk [⟨(Rect.unit (s := S8x256) ![0, 0] S8x256.size inb_S8x256_S8x256_0_0), k1_pay1 (F := F)⟩]) k1_t1_loop.trips
        ++ [⟨(Rect.unit (s := S8x256) ![0, 0] S8x256.size inb_S8x256_S8x256_0_0), k1_pay1 (F := F)⟩] := by
  unfold kernelRun1_A
  rfl

theorem step1_runC2_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    (kernelRun1_C (F := F) c i arg2 harg2 arg3 harg3 arg4 harg4 arg5 harg5 hc0 hc1 x0 x1 xs0).2.1
      = pb_k1_t1 (F := F) Variants.none c none i arg2 harg2 arg3 harg3 arg4 harg4 arg5 harg5 (arg3.view.readAt (Elt F) (Rect.unit (s := S64x256x64) ![0, 0, 0] S64x256x64.size inb_S64x256x64_S64x256x64_0_0_0).toLoadRect (harg3.unread x1)) (harg2.unread x0) (harg5.unread xs0) k1_t1_loop.trips := by
  unfold kernelRun1_C
  rfl

theorem step1_runC1_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    (kernelRun1_C (F := F) c i arg2 harg2 arg3 harg3 arg4 harg4 arg5 harg5 hc0 hc1 x0 x1 xs0).1
      = [⟨(Rect.unit (s := S8x256) ![0, 0] S8x256.size inb_S8x256_S8x256_0_0), arg5.view.readAt (Elt F) (Rect.unit (s := S8x256) ![0, 0] S8x256.size inb_S8x256_S8x256_0_0).toLoadRect (arg5.view.writes (Elt F) (harg5.unread xs0)
          (pb_k1_t1 (F := F) Variants.none c none i arg2 harg2 arg3 harg3 arg4 harg4 arg5 harg5 (arg3.view.readAt (Elt F) (Rect.unit (s := S64x256x64) ![0, 0, 0] S64x256x64.size inb_S64x256x64_S64x256x64_0_0_0).toLoadRect (harg3.unread x1)) (harg2.unread x0) (harg5.unread xs0) k1_t1_loop.trips))⟩] := by
  unfold kernelRun1_C
  rfl

end Runs

/-! ## The scratch after the loop, at the extended reals -/

theorem step1_zeros2 : (![0, 0] : Fin S8x256.rank → ℕ) = fun _ => 0 := funext fun a => match a with | ⟨0, _⟩ => rfl | ⟨1, _⟩ => rfl
theorem step1_zeros3 : (![0, 0, 0] : Fin S64x256x64.rank → ℕ) = fun _ => 0 := funext fun a => match a with | ⟨0, _⟩ => rfl | ⟨1, _⟩ => rfl | ⟨2, _⟩ => rfl

/-- Entry (0, o) of row r's rectangle is entry (r, o) of the accumulator. -/
theorem step1_R2_idx (r : Fin 8) (o : Fin 256) : (step1_R2 (step1_kOf r)).idx (ix2 (0 : Fin 1) o) = ix2 r o := funext fun a => Fin.ext (by
  match a with
  | ⟨0, _⟩ => show k1_off2 (step1_kOf r) 0 + 1 * 0 = r.val; rw [step1_off2_0]; show r.val + 1 * 0 = r.val; omega
  | ⟨1, _⟩ => show k1_off2 (step1_kOf r) 1 + 1 * o.val = o.val; rw [step1_off2_1]; omega)

/-- Entry (0, s, k) of batch row r's rectangle is entry (r, s, k) of the block. -/
theorem step1_R1_idx (r : Fin 8) (s : Fin 128) (k : Fin 64) : (step1_R1 (step1_kOf r)).idx (ix3 (0 : Fin 1) s k) = ix3 r s k := funext fun a => Fin.ext (by
  match a with
  | ⟨0, _⟩ => show k1_off1 (step1_kOf r) 0 + 1 * 0 = r.val; rw [step1_off1_0]; show r.val + 1 * 0 = r.val; omega
  | ⟨1, _⟩ => show k1_off1 (step1_kOf r) 1 + 1 * s.val = s.val; rw [step1_off1_1]; omega
  | ⟨2, _⟩ => show k1_off1 (step1_kOf r) 2 + 1 * k.val = k.val; rw [step1_off1_2]; omega)

/-- After the eight trips over contents that read g, the accumulator reads g plus the step's partial sum. -/
theorem step1_after_loop_read (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (x0 : Vec Ideal S8x128x64 .f32) (x1 : Vec Ideal S64x256x64 .f32)
    (G : BufTy.Contents (Elt Ideal) arg5.view.ty) (g : Vec Ideal S8x256 .f32) (hG : arg5.view.read (Elt Ideal) G = g) (T : ℕ) (hT : T = 8) :
    arg5.view.read (Elt Ideal) (arg5.view.writes (Elt Ideal) G
        (pb_k1_t1 (F := Ideal) Variants.none c none i arg2 harg2 arg3 harg3 arg4 harg4 arg5 harg5 (arg3.view.readAt (Elt Ideal) (Rect.unit (s := S64x256x64) ![0, 0, 0] S64x256x64.size inb_S64x256x64_S64x256x64_0_0_0).toLoadRect (harg3.unread x1)) (harg2.unread x0) G T))
      = fun j => g j + stepSum x0 x1 (j 0) (j 1) := by
  subst hT
  funext j
  obtain ⟨r, o, rfl⟩ : ∃ (r : Fin 8) (o : Fin 256), j = ix2 r o := ⟨j 0, j 1, eq_ix2 j⟩
  rw [step1_loop_read Variants.none none c i arg2 harg2 arg3 harg3 arg4 harg4 arg5 harg5 _ _ G 8 (le_refl 8) r o, if_pos r.isLt, k1_pay2_apply, hG]
  have e3 : (arg3.view.readAt (Elt Ideal) (Rect.unit (s := S64x256x64) ![0, 0, 0] S64x256x64.size inb_S64x256x64_S64x256x64_0_0_0).toLoadRect (harg3.unread x1)) = x1 := by
    rw [View.readAt_eq_ld, harg3.read_unread, View.ld_unit_zero (S := S64x256x64) step1_zeros3]
  have e2 : ∀ (s : Fin 128) (k : Fin 64), arg2.view.readAt (Elt Ideal) (step1_R1 (step1_kOf r)).toLoadRect (harg2.unread x0) (ix3 (0 : Fin 1) s k) = x0 (ix3 r s k) := fun s k => by
    rw [View.readAt_apply, harg2.read_unread]
    exact congrArg x0 (step1_R1_idx r s k)
  have e5 : View.ld g (step1_R2 (step1_kOf r)) (ix2 (0 : Fin 1) o) = g (ix2 r o) := congrArg g (step1_R2_idx r o)
  rw [e3, e5]
  simp only [e2]
  rfl

/-! ## The three control cases -/

theorem sout1_A_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec Ideal S8x128x64 .f32) (x1 : Vec Ideal S64x256x64 .f32) :
    sout1_A (F := Ideal) c i arg2 harg2 arg3 harg3 arg4 harg4 arg5 harg5 hc0 hc1 x0 x1 = fun j => stepSum x0 x1 (j 0) (j 1) := by
  unfold sout1_A
  rw [View.read_writes_of_cover VS1_0 VS1_0.junk arg5.view arg5.view.junk _ (scover1_A_0 c i arg2 harg2 arg3 harg3 arg4 harg4 arg5 harg5 hc0 hc1 x0 x1),
    step1_runA_eq, View.writes_append]
  have hG : arg5.view.read (Elt Ideal) (arg5.view.writes (Elt Ideal) arg5.view.junk [⟨(Rect.unit (s := S8x256) ![0, 0] S8x256.size inb_S8x256_S8x256_0_0), k1_pay1 (F := Ideal)⟩]) = k1_pay1 (F := Ideal) := by
    rw [View.read_writes_eq_canon _ _ _ (fun y => ⟨⟨(Rect.unit (s := S8x256) ![0, 0] S8x256.size inb_S8x256_S8x256_0_0), k1_pay1 (F := Ideal)⟩, List.mem_singleton_self _, View.mem_set_unit_zero (S := S8x256) step1_zeros2 inb_S8x256_S8x256_0_0 y⟩), View.canon_unit_zero (S := S8x256) step1_zeros2]
  rw [step1_after_loop_read c i arg2 harg2 arg3 harg3 arg4 harg4 arg5 harg5 x0 x1 _ _ hG _ step1_trips_eq]
  funext j
  rw [k1_pay1_apply, zero_add]

theorem sout1_B_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec Ideal S8x128x64 .f32) (x1 : Vec Ideal S64x256x64 .f32) (xs0 : Vec Ideal S8x256 .f32) :
    sout1_B (F := Ideal) c i arg2 harg2 arg3 harg3 arg4 harg4 arg5 harg5 hc0 hc1 x0 x1 xs0 = fun j => xs0 j + stepSum x0 x1 (j 0) (j 1) := by
  unfold sout1_B
  rw [View.read_writes_of_cover VS1_0 VS1_0.junk arg5.view (harg5.unread xs0) _ (scover1_B_0 c i arg2 harg2 arg3 harg3 arg4 harg4 arg5 harg5 hc0 hc1 x0 x1 xs0),
    step1_runB_eq]
  exact step1_after_loop_read c i arg2 harg2 arg3 harg3 arg4 harg4 arg5 harg5 x0 x1 _ xs0 (harg5.read_unread xs0) _ step1_trips_eq

theorem sout1_C_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec Ideal S8x128x64 .f32) (x1 : Vec Ideal S64x256x64 .f32) (xs0 : Vec Ideal S8x256 .f32) :
    sout1_C (F := Ideal) c i arg2 harg2 arg3 harg3 arg4 harg4 arg5 harg5 hc0 hc1 x0 x1 xs0 = fun j => xs0 j + stepSum x0 x1 (j 0) (j 1) := by
  unfold sout1_C
  rw [View.read_writes_of_cover VS1_0 VS1_0.junk arg5.view (harg5.unread xs0) _ (scover1_C_0 c i arg2 harg2 arg3 harg3 arg4 harg4 arg5 harg5 hc0 hc1 x0 x1 xs0),
    step1_runC2_eq]
  exact step1_after_loop_read c i arg2 harg2 arg3 harg3 arg4 harg4 arg5 harg5 x0 x1 _ xs0 (harg5.read_unread xs0) _ step1_trips_eq

theorem out1_C_2_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec Ideal S8x128x64 .f32) (x1 : Vec Ideal S64x256x64 .f32) (xs0 : Vec Ideal S8x256 .f32) :
    out1_C_2 (F := Ideal) c i arg2 harg2 arg3 harg3 arg4 harg4 arg5 harg5 hc0 hc1 x0 x1 xs0 = fun j => xs0 j + stepSum x0 x1 (j 0) (j 1) := by
  unfold out1_C_2
  rw [View.read_writes_eq_canon VO1_2 VO1_2.junk _ (cover1_C_2 c i arg2 harg2 arg3 harg3 arg4 harg4 arg5 harg5 hc0 hc1 x0 x1 xs0),
    step1_runC1_eq, View.canon_unit_zero step1_zeros2, View.readAt_eq_ld, View.ld_unit_zero (S := S8x256) step1_zeros2]
  exact step1_after_loop_read c i arg2 harg2 arg3 harg3 arg4 harg4 arg5 harg5 x0 x1 _ xs0 (harg5.read_unread xs0) _ step1_trips_eq

end Cert.KernelIdeal.Hand

end
-- ==== Proof.V1Value.lean ====
/-
  Region 1's value. On the grid [2, 8] (point t = 8 · bt + st) the kernel accumulates, into an 8 × 256 scratch, for
  batch block bt one partial sum per step st: over the 128 set elements of the step's block, the best match (the maximum
  from minus infinity over a hidden set's 64 elements of the 64-term inner product clipped below at zero). Here: the
  result as ONE function of the projected array and the hidden sets, matchSum; the best match with set and element given
  as naturals, so that the sums over elements run over initial segments of the naturals; a step's partial sum as the 128
  terms after the first (t % 8) · 128; the accumulator after point t as the sum of the first (t % 8 + 1) · 128 terms, by
  induction on the point (a first step stores its partial sum, a later one adds its own to what the step before left:
  an initial segment grows by 128 terms); after a last step that is all 1024 terms, the result's entry; the blocks the
  last steps write back tile the 16 rows (row b lies in block b / 8); hence the result array after the region is
  matchSum of the arrays as the region finds them.
-/
import proofs.«179034_j15960098472410_1_alg».proof.Proof.V1Step
import Idealize.ShloMosaic.Lib.Pipeline.Value
import Idealize.ShloMosaic.Lib.ValueIdx
import Mathlib.Algebra.BigOperators.Fin
import Mathlib.Algebra.BigOperators.Group.Finset.Basic
import Mathlib.Data.Finset.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The specification -/

/-- Set b against hidden set o: the best matches of the set's 1024 elements, summed. -/
def matchSum (xc : (⟨3, ![16, 1024, 64]⟩ : Shape).Idx → EReal) (ht : (⟨3, ![64, 256, 64]⟩ : Shape).Idx → EReal) : (⟨2, ![16, 256]⟩ : Shape).Idx → EReal :=
  fun j => ∑ s : Fin 1024, (Finset.univ : Finset (Fin 64)).fold max Cert.Spec.negInf (fun n => max (∑ k : Fin 64, xc (ValueIdx.ix3 (j 0) s k) * ht (ValueIdx.ix3 n (j 1) k)) Cert.Spec.zeroW)

/-- The best match of element s of set b within hidden set o: the maximum, from minus infinity, over the hidden set's 64
    elements of the 64-term inner product clipped below at zero. -/
def bestOf (xc : (⟨3, ![16, 1024, 64]⟩ : Shape).Idx → EReal) (ht : (⟨3, ![64, 256, 64]⟩ : Shape).Idx → EReal)
    (b : Fin 16) (s : Fin 1024) (o : Fin 256) : EReal :=
  (Finset.univ : Finset (Fin 64)).fold max Cert.Spec.negInf (fun n => max (∑ k : Fin 64, xc (ix3 b s k) * ht (ix3 n o k)) Cert.Spec.zeroW)

/-- The same with the set and the element given as naturals (zero outside the array), so that sums over the elements
    can be taken over initial segments of the naturals. -/
def bestN (xc : (⟨3, ![16, 1024, 64]⟩ : Shape).Idx → EReal) (ht : (⟨3, ![64, 256, 64]⟩ : Shape).Idx → EReal)
    (b n : ℕ) (o : Fin 256) : EReal :=
  if h : b < 16 ∧ n < 1024 then bestOf xc ht ⟨b, h.1⟩ ⟨n, h.2⟩ o else 0

theorem bestN_of_lt (xc : (⟨3, ![16, 1024, 64]⟩ : Shape).Idx → EReal) (ht : (⟨3, ![64, 256, 64]⟩ : Shape).Idx → EReal)
    (b n : ℕ) (o : Fin 256) (hb : b < 16) (hn : n < 1024) : bestN xc ht b n o = bestOf xc ht ⟨b, hb⟩ ⟨n, hn⟩ o :=
  dif_pos ⟨hb, hn⟩

/-- The result at (b, o) as a sum over the first 1024 naturals. -/
theorem matchSum_ix2 (xc : (⟨3, ![16, 1024, 64]⟩ : Shape).Idx → EReal) (ht : (⟨3, ![64, 256, 64]⟩ : Shape).Idx → EReal)
    (b : Fin 16) (o : Fin 256) : matchSum xc ht (ix2 b o) = ∑ u ∈ Finset.range 1024, bestN xc ht b.val u o := by
  rw [Finset.sum_range]
  refine Finset.sum_congr rfl fun s _ => ?_
  rw [bestN_of_lt xc ht b.val s.val o b.isLt s.isLt]
  rfl

/-! ## The accumulator after a grid point, as one sum -/

/-- What the accumulator holds after point n (batch block n / 8, step n % 8) at row r, hidden set o: the best matches
    of the first (n % 8 + 1) · 128 elements of set (n / 8) · 8 + r, summed. -/
def accN (xc : (⟨3, ![16, 1024, 64]⟩ : Shape).Idx → EReal) (ht : (⟨3, ![64, 256, 64]⟩ : Shape).Idx → EReal) (n : ℕ) :
    Vec Ideal S8x256 .f32 :=
  fun j => ∑ u ∈ Finset.range ((n % 8 + 1) * 128), bestN xc ht (n / 8 * 8 + (j 0).val) u (j 1)

/-- ONE STEP'S PARTIAL SUM, over a block and arrays given as variables: if the x block at point n is rows
    (n / 8) · 8 …, elements (n % 8) · 128 … of the array XC and the hidden block is HT, the step's partial sum at (r, o)
    is the sum of the best matches of those 128 elements. -/
theorem stepSum_eq (XC : S16x1024x64.Idx → EReal) (HT : S64x256x64.Idx → EReal)
    (x0 : Vec Ideal S8x128x64 .f32) (x1 : Vec Ideal S64x256x64 .f32) (n : ℕ) (hn : n < 16)
    (h0 : ∀ (r : Fin 8) (s : Fin 128) (k : Fin 64) (b : Fin 16) (e : Fin 1024), b.val = n / 8 * 8 + r.val → e.val = n % 8 * 128 + s.val →
      x0 (ix3 r s k) = XC (ix3 b e k))
    (h1 : ∀ (a : Fin 64) (o : Fin 256) (k : Fin 64), x1 (ix3 a o k) = HT (ix3 a o k))
    (r : Fin 8) (o : Fin 256) :
    stepSum x0 x1 r o = ∑ s ∈ Finset.range 128, bestN XC HT (n / 8 * 8 + r.val) (n % 8 * 128 + s) o := by
  rw [Finset.sum_range]
  unfold stepSum
  refine Finset.sum_congr rfl fun s _ => ?_
  have hb : n / 8 * 8 + r.val < 16 := by have := r.isLt; omega
  have he : n % 8 * 128 + s.val < 1024 := by have := s.isLt; omega
  rw [bestN_of_lt XC HT _ _ o hb he]
  unfold bestOf
  refine Finset.fold_congr fun a _ => ?_
  congr 1
  refine Finset.sum_congr rfl fun k _ => ?_
  rw [h0 r s k ⟨_, hb⟩ ⟨_, he⟩ rfl rfl, h1]

/-- At a first step the accumulator is the step's partial sum alone … -/
theorem accN_first (xc : (⟨3, ![16, 1024, 64]⟩ : Shape).Idx → EReal) (ht : (⟨3, ![64, 256, 64]⟩ : Shape).Idx → EReal) (n : ℕ)
    (h0 : n % 8 = 0) (r : Fin 8) (o : Fin 256) :
    accN xc ht n (ix2 r o) = ∑ s ∈ Finset.range 128, bestN xc ht (n / 8 * 8 + r.val) (n % 8 * 128 + s) o := by
  show ∑ u ∈ Finset.range ((n % 8 + 1) * 128), bestN xc ht (n / 8 * 8 + r.val) u o = _
  rw [h0]
  refine Finset.sum_congr rfl fun s _ => ?_
  rw [Nat.zero_mul, Nat.zero_add]

/-- … and at a later step what the step before left plus the step's partial sum. -/
theorem accN_next (xc : (⟨3, ![16, 1024, 64]⟩ : Shape).Idx → EReal) (ht : (⟨3, ![64, 256, 64]⟩ : Shape).Idx → EReal) (n : ℕ)
    (h0 : ¬n % 8 = 0) (r : Fin 8) (o : Fin 256) :
    accN xc ht n (ix2 r o)
      = accN xc ht (n - 1) (ix2 r o) + ∑ s ∈ Finset.range 128, bestN xc ht (n / 8 * 8 + r.val) (n % 8 * 128 + s) o := by
  show ∑ u ∈ Finset.range ((n % 8 + 1) * 128), bestN xc ht (n / 8 * 8 + r.val) u o
    = ∑ u ∈ Finset.range (((n - 1) % 8 + 1) * 128), bestN xc ht ((n - 1) / 8 * 8 + r.val) u o + _
  rw [show (n - 1) / 8 = n / 8 by omega, show (n - 1) % 8 + 1 = n % 8 by omega,
    show (n % 8 + 1) * 128 = n % 8 * 128 + 128 by omega, Finset.sum_range_add]

/-- After a last step the accumulator is the whole sum over the set's 1024 elements: the result's entry. -/
theorem accN_last (xc : (⟨3, ![16, 1024, 64]⟩ : Shape).Idx → EReal) (ht : (⟨3, ![64, 256, 64]⟩ : Shape).Idx → EReal) (n : ℕ)
    (h7 : n % 8 = 7) (y : S8x256.Idx) (i : S16x256.Idx) (hi0 : (i 0).val = n / 8 * 8 + (y 0).val) (hi1 : (i 1).val = (y 1).val) :
    accN xc ht n y = matchSum xc ht i := by
  obtain ⟨r, o, rfl⟩ : ∃ (r : Fin 8) (o : Fin 256), y = ix2 r o := ⟨y 0, y 1, eq_ix2 y⟩
  obtain ⟨b, o', rfl⟩ : ∃ (b : Fin 16) (o' : Fin 256), i = ix2 b o' := ⟨i 0, i 1, eq_ix2 i⟩
  obtain rfl : o' = o := Fin.ext hi1
  rw [matchSum_ix2]
  show ∑ u ∈ Finset.range ((n % 8 + 1) * 128), bestN xc ht (n / 8 * 8 + r.val) u o' = _
  rw [h7, show b.val = n / 8 * 8 + r.val from hi0]

/-! ## The windows' index maps over the grid, and each block read off its array -/

/-- The printed index maps, decided over the sixteen points t = 8·bt + st: the x window is at block (bt, st, 0), the
    hidden sets' window stays, the result window is at block (bt, 0). -/
theorem idx_match : ∀ t : Fin cfg1.N, win1_0.index t (0 : Fin 3) = t.val / 8 ∧ win1_0.index t (1 : Fin 3) = t.val % 8 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val / 8 ∧ win1_2.index t (1 : Fin 2) = 0 :=
  (by decide +kernel : ∀ t : Fin grid1.N, _)

section Region1
variable (V : (c : Dev nD) → (b : Ref sig .tc) → Buf (Elt Ideal) ((c : Thread nD τ).loc b))

/-- The x block and the hidden sets' block at point t, as vectors of their literal shapes. -/
abbrev xblk (c : Dev nD) (t : Fin cfg1.N) : Vec Ideal S8x128x64 .f32 := iblk1 (F := Ideal) V c 0 t
abbrev hblk (c : Dev nD) (t : Fin cfg1.N) : Vec Ideal S64x256x64 .f32 := iblk1 (F := Ideal) V c 1 t

/-- The x block at point t is sets (t / 8) · 8 …, elements (t % 8) · 128 … of the projected array. -/
theorem xblk_apply (c : Dev nD) (t : Fin cfg1.N) (r : Fin 8) (s : Fin 128) (k : Fin 64) (b : Fin 16) (e : Fin 1024)
    (hb : b.val = t.val / 8 * 8 + r.val) (he : e.val = t.val % 8 * 128 + s.val) :
    xblk V c t (ix3 r s k) = (V c main_v3 : S16x1024x64.Idx → EReal) (ix3 b e k) := by
  obtain ⟨e0, e1, e2, -⟩ := idx_match t
  unfold xblk iblk1
  rw [View.read_apply]
  show V c main_v3 _ = V c main_v3 _
  congr 1
  funext a
  apply Fin.ext
  match a with
  | ⟨0, _⟩ => show win1_0.index t (0 : Fin 3) * 8 + 1 * r.val = b.val; rw [e0, hb]; omega
  | ⟨1, _⟩ => show win1_0.index t (1 : Fin 3) * 128 + 1 * s.val = e.val; rw [e1, he]; omega
  | ⟨2, _⟩ => show win1_0.index t (2 : Fin 3) * 64 + 1 * k.val = k.val; rw [e2]; omega

/-- The hidden sets' block at every point is the whole array. -/
theorem hblk_apply (c : Dev nD) (t : Fin cfg1.N) (a : Fin 64) (o : Fin 256) (k : Fin 64) :
    hblk V c t (ix3 a o k) = (V c main_v4 : S64x256x64.Idx → EReal) (ix3 a o k) := by
  obtain ⟨-, -, -, e0, e1, e2, -⟩ := idx_match t
  unfold hblk iblk1
  rw [View.read_apply]
  show V c main_v4 _ = V c main_v4 _
  congr 1
  funext ax
  apply Fin.ext
  match ax with
  | ⟨0, _⟩ => show win1_1.index t (0 : Fin 3) * 64 + 1 * a.val = a.val; rw [e0]; omega
  | ⟨1, _⟩ => show win1_1.index t (1 : Fin 3) * 256 + 1 * o.val = o.val; rw [e1]; omega
  | ⟨2, _⟩ => show win1_1.index t (2 : Fin 3) * 64 + 1 * k.val = k.val; rw [e2]; omega

/-- The step's partial sum at point t, read off the arrays. -/
theorem stepSum_at (c : Dev nD) (t : Fin cfg1.N) (r : Fin 8) (o : Fin 256) :
    stepSum (xblk V c t) (hblk V c t) r o
      = ∑ s ∈ Finset.range 128, bestN (V c main_v3) (V c main_v4) (t.val / 8 * 8 + r.val) (t.val % 8 * 128 + s) o :=
  stepSum_eq (V c main_v3) (V c main_v4) _ _ t.val (lt_of_lt_of_eq t.isLt N_1) (xblk_apply V c t) (hblk_apply V c t) r o

/-! ## The accumulator point by point -/

/-- THE INVARIANT: after point n the accumulator holds, at (r, o), the best matches of the first (n % 8 + 1) · 128
    elements of set (n / 8) · 8 + r, summed — by induction on the point: a first step stores its partial sum, every
    later step adds its own to what the step before left. -/
theorem scAt1_eq (c : Dev nD) (n : ℕ) : ∀ hn : n < cfg1.N, scAt1 (F := Ideal) V c n hn = accN (V c main_v3) (V c main_v4) n := by
  induction n using Nat.strong_induction_on with
  | _ n ih =>
    intro hn
    by_cases h0 : n % 8 = 0
    · refine (scAt1_A V c ⟨n, hn⟩ h0 (by show ¬n % 8 = 7; omega)).trans ((sout1_A_eq ..).trans ?_)
      funext j
      obtain ⟨r, o, rfl⟩ : ∃ (r : Fin 8) (o : Fin 256), j = ix2 r o := ⟨j 0, j 1, eq_ix2 j⟩
      show stepSum (xblk V c ⟨n, hn⟩) (hblk V c ⟨n, hn⟩) r o = accN (V c main_v3) (V c main_v4) n (ix2 r o)
      rw [accN_first _ _ n h0, stepSum_at]
    · have hp : n - 1 < cfg1.N := Nat.lt_of_le_of_lt (Nat.sub_le _ _) hn
      have hprev := ih (n - 1) (by omega) hp
      by_cases h1 : n % 8 = 7
      · refine (scAt1_C V c ⟨n, hn⟩ h0 h1).trans ((sout1_C_eq ..).trans ?_)
        funext j
        obtain ⟨r, o, rfl⟩ : ∃ (r : Fin 8) (o : Fin 256), j = ix2 r o := ⟨j 0, j 1, eq_ix2 j⟩
        show scAt1 (F := Ideal) V c (n - 1) hp (ix2 r o) + stepSum (xblk V c ⟨n, hn⟩) (hblk V c ⟨n, hn⟩) r o
          = accN (V c main_v3) (V c main_v4) n (ix2 r o)
        rw [hprev, accN_next _ _ n h0, stepSum_at]
      · refine (scAt1_B V c ⟨n, hn⟩ h0 h1).trans ((sout1_B_eq ..).trans ?_)
        funext j
        obtain ⟨r, o, rfl⟩ : ∃ (r : Fin 8) (o : Fin 256), j = ix2 r o := ⟨j 0, j 1, eq_ix2 j⟩
        show scAt1 (F := Ideal) V c (n - 1) hp (ix2 r o) + stepSum (xblk V c ⟨n, hn⟩) (hblk V c ⟨n, hn⟩) r o
          = accN (V c main_v3) (V c main_v4) n (ix2 r o)
        rw [hprev, accN_next _ _ n h0, stepSum_at]

/-- The output block at a last-step point is the accumulator there: what the step before left plus this step's sum. -/
theorem outAt1_eq (c : Dev nD) (t : Fin cfg1.N) (h7 : t.val % 8 = 7) :
    outAt1 (F := Ideal) V c t = accN (V c main_v3) (V c main_v4) t.val := by
  have h0 : ¬t.val % 8 = 0 := by omega
  have hp : t.val - 1 < cfg1.N := Nat.lt_of_le_of_lt (Nat.sub_le _ _) t.isLt
  refine (outAt1_C V c t h0 h7).trans ((out1_C_2_eq ..).trans ?_)
  funext j
  obtain ⟨r, o, rfl⟩ : ∃ (r : Fin 8) (o : Fin 256), j = ix2 r o := ⟨j 0, j 1, eq_ix2 j⟩
  show scAt1 (F := Ideal) V c (t.val - 1) hp (ix2 r o) + stepSum (xblk V c t) (hblk V c t) r o
    = accN (V c main_v3) (V c main_v4) t.val (ix2 r o)
  rw [scAt1_eq V c (t.val - 1) hp, accN_next _ _ t.val h0, stepSum_at]

/-! ## From the blocks to the array -/

/-- WHAT A LAST-STEP POINT WRITES BACK is its block of the result of the arrays as the region finds them. -/
theorem flushed_match_eq (c : Dev nD) (t : Fin cfg1.N) (hf : (cfg1.win 2).flush t = true) :
    (dat1 (F := Ideal) V c).flushed 2 t
      = ((cfg1.win 2).blk t).view.read (Elt Ideal) (matchSum (V c main_v3) (V c main_v4)) := by
  have h7 : t.val % 8 = 7 := (flush1_2 t).mp hf
  show (cfg1.win 2).cut (grid1.coords t) ((dat1 (F := Ideal) V c).after 2 t) = _
  rw [after1_2, outAt1_eq V c t h7]
  obtain ⟨-, -, -, -, -, -, e0, e1⟩ := idx_match t
  funext j
  show accN (V c main_v3) (V c main_v4) t.val ((cfg1.win 2).xinj (grid1.coords t) j)
    = matchSum (V c main_v3) (V c main_v4) (((cfg1.win 2).blk t).view.emb j)
  refine accN_last _ _ t.val h7 _ _ ?_ ?_
  · show win1_2.index t (0 : Fin 2) * 8 + 1 * (j 0).val = t.val / 8 * 8 + (j 0).val
    rw [e0]; omega
  · show win1_2.index t (1 : Fin 2) * 256 + 1 * (j 1).val = (j 1).val
    rw [e1]; omega

/-- An index of the result array is in point t's block iff each coordinate is in the block's range on its axis. -/
theorem mem_blk_match (t : Fin cfg1.N) (i : S16x256.Idx) :
    i ∈ ((cfg1.win 2).blk t).view.set ↔ ∀ a : Fin 2, win1_2.index t a * S8x256.size a ≤ (i a).val ∧ (i a).val < win1_2.index t a * S8x256.size a + S8x256.size a := by
  show i ∈ ((View.whole main_v5).slice (win1_2.rect t)).set ↔ _
  rw [View.set_slice_whole, Rect.mem_set_unit]
  exact Iff.rfl

/-- Row b of the result lies in block b / 8, which the last step of that batch block writes back. -/
theorem cover_match (i : S16x256.Idx) : ∃ t : Fin cfg1.N, (cfg1.win 2).flush t = true ∧ i ∈ ((cfg1.win 2).blk t).view.set := by
  have hi0 : (i 0).val < 16 := (i 0).isLt
  have hi1 : (i 1).val < 256 := (i 1).isLt
  have hN : cfg1.N = 16 := N_1
  have ht : (i 0).val / 8 * 8 + 7 < cfg1.N := by rw [hN]; omega
  refine ⟨⟨(i 0).val / 8 * 8 + 7, ht⟩, (flush1_2 _).mpr (by show ((i 0).val / 8 * 8 + 7) % 8 = 7; omega), ?_⟩
  rw [mem_blk_match]
  obtain ⟨-, -, -, -, -, -, e0, e1⟩ := idx_match ⟨(i 0).val / 8 * 8 + 7, ht⟩
  intro a
  match a with
  | ⟨0, _⟩ =>
    show win1_2.index _ (0 : Fin 2) * 8 ≤ (i 0).val ∧ (i 0).val < win1_2.index _ (0 : Fin 2) * 8 + 8
    rw [e0]; show ((i 0).val / 8 * 8 + 7) / 8 * 8 ≤ (i 0).val ∧ (i 0).val < ((i 0).val / 8 * 8 + 7) / 8 * 8 + 8; omega
  | ⟨1, _⟩ =>
    show win1_2.index _ (1 : Fin 2) * 256 ≤ (i 1).val ∧ (i 1).val < win1_2.index _ (1 : Fin 2) * 256 + 256
    rw [e1]; omega

/-- THE RESULT ARRAY after the region: per set and hidden set, the best matches summed over the set's elements, of the
    projected array and the hidden sets as the region finds them. -/
theorem final1 (c : Dev nD) :
    (dat1 (F := Ideal) V c).arrAt 2 cfg1.N = matchSum (V c main_v3) (V c main_v4) :=
  (dat1 (F := Ideal) V c).arrAt_eq_of_cover 2 (matchSum (V c main_v3) (V c main_v4))
    (fun t hf => flushed_match_eq V c t hf) cover_match

end Region1

end Cert.KernelIdeal.Hand

end
-- ==== Proof.Bridge.lean ====
/-
  The idealized kernel's result, end to end. The second region's result array is the summed best matches of the
  array it was handed (the first region's rows of projected features, re-laid as [16, 1024, 64]) against the
  transposed hidden sets; the first region's rows are the inner products of the re-laid input rows with the weight
  rows plus the re-laid bias. Reading each re-laying (two reshapes of the inputs, one of the intermediate, one
  transpose) at an index turns this into the specification's function of the four argument arrays: the two sides
  are then the same sums and maxima term by term, so no law of the extended reals beyond that is used.
-/
import proofs.«179034_j15960098472410_1_alg».proof.Proof.Launch
import proofs.«179034_j15960098472410_1_alg».proof.Proof.V0Value
import proofs.«179034_j15960098472410_1_alg».proof.Proof.V1Value
import proofs.«179034_j15960098472410_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem V1_main_v1 (c : Dev nD) : V1 m c main_v1 = shapeCast S16384x300 (m ((c : Thread nD τ).loc main_arg0)) shapeCasts_S16x1024x300_S16384x300 := by
  dsimp only [V1, W1, hostOps0]; after_results <;> rfl
theorem V1_main_v0 (c : Dev nD) : V1 m c main_v0 = shapeCast S1x64 (m ((c : Thread nD τ).loc main_arg2)) shapeCasts_S64_S1x64 := by
  dsimp only [V1, W1, hostOps0]; after_results <;> rfl
theorem V1_main_arg1 (c : Dev nD) : V1 m c main_arg1 = m ((c : Thread nD τ).loc main_arg1) := by
  dsimp only [V1, W1, hostOps0]; after_results <;> rfl
theorem V3_main_v3 (c : Dev nD) : V3 m c main_v3 = shapeCast S16x1024x64 (W2 m c (Proc.devRef .tc main_v2)) shapeCasts_S16384x64_S16x1024x64 := by
  dsimp only [V3, W3, hostOps1]; after_results <;> rfl
theorem V3_main_v4 (c : Dev nD) : V3 m c main_v4 = transpose S64x256x64 [1, 0, 2] (W2 m c (Proc.devRef .tc main_arg3)) transposes_S256x64x64_S64x256x64_1_0_2 := by
  dsimp only [V3, W3, hostOps1]; after_results <;> rfl

theorem glue (X : (⟨3, ![16, 1024, 300]⟩ : Shape).Idx → EReal) (W : (⟨2, ![64, 300]⟩ : Shape).Idx → EReal)
    (bv : (⟨1, ![64]⟩ : Shape).Idx → EReal) (H : (⟨3, ![256, 64, 64]⟩ : Shape).Idx → EReal) :
    matchSum (shapeCast S16x1024x64 (xcRows (shapeCast S16384x300 X shapeCasts_S16x1024x300_S16384x300) W (shapeCast S1x64 bv shapeCasts_S64_S1x64)) shapeCasts_S16384x64_S16x1024x64)
      (transpose S64x256x64 [1, 0, 2] H transposes_S256x64x64_S64x256x64_1_0_2) = Cert.Spec.G X W bv H := by
  funext j
  obtain ⟨b, o, rfl⟩ : ∃ (b : Fin 16) (o : Fin 256), j = ix2 b o := ⟨j 0, j 1, eq_ix2 j⟩
  unfold matchSum Cert.Spec.G Cert.Spec.best Cert.Spec.score Cert.Spec.proj
  refine Finset.sum_congr rfl fun s _ => ?_
  refine congrArg (fun f => (Finset.univ : Finset (Fin 64)).fold max Cert.Spec.negInf f) (funext fun n => ?_)
  refine congrArg (fun z => max z Cert.Spec.zeroW) (Finset.sum_congr rfl fun k _ => ?_)
  have hr : b.val * 1024 + s.val < 16384 := by have := b.isLt; have := s.isLt; omega
  have e1 : shapeCast S16x1024x64 (xcRows (shapeCast S16384x300 X shapeCasts_S16x1024x300_S16384x300) W (shapeCast S1x64 bv shapeCasts_S64_S1x64)) shapeCasts_S16384x64_S16x1024x64 (ix3 b s k)
      = (∑ d : Fin 300, X (ix3 b s d) * W (ix2 k d)) + bv (ix1 k) := by
    rw [shapeCast_apply _ _ (ix3 b s k) (ix2 (⟨b.val * 1024 + s.val, hr⟩ : Fin 16384) k) (by
      rw [Shape.rowMajor_val_two, Shape.rowMajor_val_three]
      show (b.val * 1024 + s.val) * 64 + k.val = (b.val * 1024 + s.val) * 64 + k.val
      rfl)]
    unfold xcRows
    refine congrArg₂ (· + ·) (Finset.sum_congr rfl fun d _ => ?_) ?_
    · refine congrArg (· * W (ix2 k d)) ?_
      exact shapeCast_apply _ _ _ (ix3 b s d) (by
        rw [Shape.rowMajor_val_two, Shape.rowMajor_val_three]
        show (b.val * 1024 + s.val) * 300 + d.val = (b.val * 1024 + s.val) * 300 + d.val
        rfl)
    · exact shapeCast_apply _ _ _ (ix1 k) (by
        rw [Shape.rowMajor_val_two, Shape.rowMajor_val_one]
        show k.val = 0 * 64 + k.val
        omega)
  have e2 : transpose S64x256x64 [1, 0, 2] H transposes_S256x64x64_S64x256x64_1_0_2 (ix3 n o k) = H (ix3 o n k) :=
    transpose_apply _ _ _ _ (ix3 o n k) (fun a => by match a with | ⟨0, _⟩ => rfl | ⟨1, _⟩ => rfl | ⟨2, _⟩ => rfl)
  rw [e1, e2]

/-- The bias and the hidden sets reach the second region as launched (no item writes them before). -/
theorem W2_main_arg3 (c : Dev nD) : W2 m c (Proc.devRef .tc main_arg3) = m ((c : Thread nD τ).loc main_arg3) :=
  (W2_of_ne m c main_arg3 (by decide)).trans (by dsimp only [W1, hostOps0]; after_results <;> rfl)

/-- The result array after the run, as the specification's function of the launch contents of the arguments. -/
theorem result_eq (c : Dev nD) :
    (dat1 (F := Ideal) (V3 m) c).arrAt 2 cfg1.N
      = Cert.Spec.G (m ((c : Thread nD τ).loc main_arg0)) (m ((c : Thread nD τ).loc main_arg1)) (m ((c : Thread nD τ).loc main_arg2)) (m ((c : Thread nD τ).loc main_arg3)) := by
  rw [final1 (V3 m) c, V3_main_v3, V3_main_v4, W2_main_arg3]
  rw [show W2 m c (Proc.devRef .tc main_v2) = (dat0 (V1 m) c).arrAt 3 cfg0.N from W2_arr m c 3]
  rw [final0 (V1 m) c, V1_main_v1, V1_main_v0, V1_main_arg1]
  exact glue _ _ _ _

/-- Every weakly fair execution of the idealized kernel terminates with the result array at the specification's
    function of the arguments and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v5) = Cert.Spec.G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m c), (h c).2⟩) (run_result m ρ)

end Cert.KernelIdeal.Hand

end
-- ==== Proof.RefValue.lean ====
/-
  The reference's result read index by index, stage by stage: the biased projection at (b, s, k) is the 300-term
  inner product of element s of set b with weight row k plus bias k; the clipped match at (b, s, o, n) is the
  64-term inner product of that projection with element n of hidden set o, clipped below at the zero word; the
  maximum over n from the word of minus infinity is the best match; and the sum over s, started from zero, is the
  specification's value at (b, o).
-/
import proofs.«179034_j15960098472410_1_alg».proof.Proof.Gen.ReferenceIdeal.Run
import proofs.«179034_j15960098472410_1_alg».proof.Proof.Gen.ReferenceIdeal.Read
import proofs.«179034_j15960098472410_1_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S16x1024x300, .f32⟩ : BufTy).Contents (Elt Ideal)) (x1 : (⟨S64x300, .f32⟩ : BufTy).Contents (Elt Ideal))
  (x2 : (⟨S64, .f32⟩ : BufTy).Contents (Elt Ideal)) (x3 : (⟨S256x64x64, .f32⟩ : BufTy).Contents (Elt Ideal))

/-- The biased projection at (b, s, k) is feature k of element s of set b. -/
theorem v3_at (b : Fin 16) (s : Fin 1024) (k : Fin 64) :
    val_main_v3 (F := Ideal) x0 x1 x2 (ix3 b s k) = Cert.Spec.proj x0 x1 x2 b s k := by
  have el : ∀ d : Fin 300, lidx_main_v0 (ix3 b s k) d = ix3 b s d := fun d =>
    funext fun a => Fin.ext (by match a with | ⟨0, _⟩ => rfl | ⟨1, _⟩ => rfl | ⟨2, _⟩ => rfl)
  have er : ∀ d : Fin 300, ridx_main_v0 (ix3 b s k) d = ix2 k d := fun d =>
    funext fun a => Fin.ext (by match a with | ⟨0, _⟩ => rfl | ⟨1, _⟩ => rfl)
  have eb : idx_main_v1 (idx_main_v2 (ix3 b s k)) = ix1 k :=
    funext fun a => Fin.ext (by match a with | ⟨0, _⟩ => rfl)
  rw [val_main_v3_apply, val_main_v0_apply, val_main_v2_apply, val_main_v1_apply, eb]
  simp only [el, er]
  rfl

/-- The clipped match at (b, s, o, n) is the score of element s of set b against element n of hidden set o. -/
theorem v5_at (b : Fin 16) (s : Fin 1024) (o : Fin 256) (n : Fin 64) :
    val_main_v5 (F := Ideal) x0 x1 x2 x3 (ix4 b s o n) = Cert.Spec.score x0 x1 x2 x3 b s o n := by
  have el : ∀ k : Fin 64, lidx_main_v4 (ix4 b s o n) k = ix3 b s k := fun k =>
    funext fun a => Fin.ext (by match a with | ⟨0, _⟩ => rfl | ⟨1, _⟩ => rfl | ⟨2, _⟩ => rfl)
  have er : ∀ k : Fin 64, ridx_main_v4 (ix4 b s o n) k = ix3 o n k := fun k =>
    funext fun a => Fin.ext (by match a with | ⟨0, _⟩ => rfl | ⟨1, _⟩ => rfl | ⟨2, _⟩ => rfl)
  rw [val_main_v5_apply, val_main_v4_apply, val_main_call0_v0_apply, val_main_call0_cst_apply]
  simp only [el, er, v3_at]
  rfl

/-- The shape fact that names the inserted coordinate of the maximum's axis. -/
theorem reduces_d3 : S16x1024x256x64.Reduces [3] S16x1024x256 := by decide

/-- The maximum over a hidden set's elements at (b, s, o) is the best match. -/
theorem v6_at (b : Fin 16) (s : Fin 1024) (o : Fin 256) :
    val_main_v6 (F := Ideal) x0 x1 x2 x3 (ix3 b s o) = Cert.Spec.best x0 x1 x2 x3 b s o := by
  unfold val_main_v6
  rw [Host.reduce_eq_fold_single FloatOps.maximumf _ _ reducesTo_S16x1024x256x64_S16x1024x256_d3 reduces_d3 h_S_]
  have el : ∀ n : Fin 64, reduces_d3.lift (ix3 b s o) n = ix4 b s o n := fun n =>
    funext fun a => Fin.ext (by match a with | ⟨0, _⟩ => rfl | ⟨1, _⟩ => rfl | ⟨2, _⟩ => rfl | ⟨3, _⟩ => rfl)
  unfold Cert.Spec.best
  refine Finset.fold_congr (s := (Finset.univ : Finset (Fin 64))) fun n _ => ?_
  exact (congrArg (val_main_v5 (F := Ideal) x0 x1 x2 x3) (el n)).trans (v5_at x0 x1 x2 x3 b s o n)

/-- The reference's result is the specification. -/
theorem ref_eq :
    Cert.ReferenceIdeal.Read.val_main_v7 (F := Ideal) x0 x1 x2 x3 = Cert.Spec.G x0 x1 x2 x3 := by
  funext i
  obtain ⟨b, o, rfl⟩ : ∃ (b : Fin 16) (o : Fin 256), i = ix2 b o := ⟨i 0, i 1, eq_ix2 i⟩
  have ei : ∀ s : Fin 1024, idx_main_v7 (ix2 b o) s = ix3 b s o := fun s =>
    funext fun a => Fin.ext (by match a with | ⟨0, _⟩ => rfl | ⟨1, _⟩ => rfl | ⟨2, _⟩ => rfl)
  rw [val_main_v7_apply, val_main_cst_0_apply]
  simp only [ei, v6_at]
  show Ideal.ofBits .f32 0x00000000#32 + _ = _
  rw [Ideal.ofBits_zero_f32, zero_add]
  rfl

/-- The composed term the reference's run ends at, of the argument arrays, is the specification. -/
theorem run_term_eq :
    Host.reduceAdd (F := Ideal) (Host.reduce FloatOps.maximumf (maximumf (Host.dotGeneral (φ₁ := .f32) (φ₂ := .f32) dot_S16x1024x64_S256x64x64_S16x1024x256x64_2_2_01_01_n_n none (addf (Host.dotGeneral (φ₁ := .f32) (φ₂ := .f32) dot_S16x1024x300_S64x300_S16x1024x64_2_1_01_0_n_n none (x0) (x1)) (broadcastInDim S16x1024x64 ![0, 1, 2] bcast_S1x1x64_S16x1024x64_0_1_2 (broadcastInDim S1x1x64 ![2] bcast_S64_S1x1x64_2 (x2)))) (x3)) (broadcastInDim S16x1024x256x64 ![] bcast_S_S16x1024x256x64 (constant S_ .f32 0x00000000#32))) (constant S_ .f32 0xFF800000#32) reducesTo_S16x1024x256x64_S16x1024x256_d3 h_S_) (constant S_ .f32 0x00000000#32) reducesTo_S16x1024x256_S16x256_d1 h_S_
      = Cert.Spec.G x0 x1 x2 x3 :=
  (val_main_v7_eq (F := Ideal) x0 x1 x2 x3).trans (ref_eq x0 x1 x2 x3)

end Cert.ReferenceIdeal.RefValue

end
-- ==== Proof.lean ====
/-
  The certificate. The word-level kernel and its idealization run to the end with their arguments unchanged (two
  pipelined regions between host re-layings: a row-blocked projection, then the bipartite match accumulated over the
  set axis in a scratch carried across grid points); the reference's run is its operations' composed term. The ideal
  pass rewrote nothing, so the idealization is the kernel's own text read over the extended reals. Both idealized
  programs compute, per set and hidden set, the sum over the set's 1024 elements of the best clipped match of the
  projected element within the hidden set: the kernel in 8 steps of 128 elements per batch block, the reference in
  one pass; the results agree entry by entry because addition of extended reals is commutative and associative.
-/
import proofs.«179034_j15960098472410_1_alg».proof.Defs
import proofs.«179034_j15960098472410_1_alg».proof.Proof.Gen.Kernel
import proofs.«179034_j15960098472410_1_alg».proof.Proof.Gen.KernelIdeal
import proofs.«179034_j15960098472410_1_alg».proof.Proof.Gen.ReferenceIdeal
import proofs.«179034_j15960098472410_1_alg».proof.Proof.Gen.Pre_finite_inputs
import proofs.«179034_j15960098472410_1_alg».proof.Proof.KLaunch
import proofs.«179034_j15960098472410_1_alg».proof.Proof.Bridge
import proofs.«179034_j15960098472410_1_alg».proof.Proof.RefValue
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification's function of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.run_term_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
